-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x3 : Shape := ⟨2, ![4096, 3]⟩
abbrev S_ : Shape := ⟨0, ![]⟩
abbrev S1x3 : Shape := ⟨2, ![1, 3]⟩

class Facts : Prop where
  bcast_S_S4096x3 : S_.BroadcastsInDim S4096x3 (![] : Fin 0 → Fin S4096x3.rank)
  reducesTo_S4096x3_S_d0_1 : S4096x3.ReducesTo [0, 1] S_
  h_S_ : 0 < S_.numel
  slices_S4096x3_S1x3_0_0 : S4096x3.Slices ![0, 0] S1x3
  bcast_S1x3_S4096x3_0_1 : S1x3.BroadcastsInDim S4096x3 (![0, 1] : Fin 2 → Fin S4096x3.rank)

variable [Facts]

def fn_part1 {F : FTy → Type} [FloatOps F] (main_v8 : IVec S_ 1) (main_v17 : IVec S_ 1) : IVec S_ 1 :=
  let main_v18 : IVec S_ 1 := noti main_v17
  let main_v19 : IVec S_ 1 := andi main_v8 main_v18
  main_v19

def fn {F : FTy → Type} [FloatOps F] (main_arg0 : FVec F S4096x3 .f32) (main_arg1 : FVec F S4096x3 .f32) : IVec S_ 1 :=
  let main_v0 : FVec F S4096x3 .f32 := Host.absf main_arg0
  let main_cst : FVec F S_ .f32 := constant S_ .f32 0x7F800000#32
  let main_v1 : FVec F S4096x3 .f32 := broadcastInDim S4096x3 ![] bcast_S_S4096x3 main_cst
  let main_v2 : IVec S4096x3 1 := cmpf .olt main_v0 main_v1
  let main_c : IVec S_ 1 := constantI S_ 1 1#1
  let main_v3 : IVec S_ 1 := (fun x v => Host.reduce IntOp.andi x v reducesTo_S4096x3_S_d0_1 h_S_) main_v2 main_c
  let main_v4 : FVec F S4096x3 .f32 := Host.absf main_arg1
  let main_cst_0 : FVec F S_ .f32 := constant S_ .f32 0x7F800000#32
  let main_v5 : FVec F S4096x3 .f32 := broadcastInDim S4096x3 ![] bcast_S_S4096x3 main_cst_0
  let main_v6 : IVec S4096x3 1 := cmpf .olt main_v4 main_v5
  let main_c_1 : IVec S_ 1 := constantI S_ 1 1#1
  let main_v7 : IVec S_ 1 := (fun x v => Host.reduce IntOp.andi x v reducesTo_S4096x3_S_d0_1 h_S_) main_v6 main_c_1
  let main_v8 : IVec S_ 1 := andi main_v3 main_v7
  let main_v9 : FVec F S1x3 .f32 := (extractStridedSlice S1x3 ![0, 0] · slices_S4096x3_S1x3_0_0) main_arg0
  let main_v10 : FVec F S4096x3 .f32 := broadcastInDim S4096x3 ![0, 1] bcast_S1x3_S4096x3_0_1 main_v9
  let main_v11 : IVec S4096x3 1 := cmpf .oeq main_arg0 main_v10
  let main_c_2 : IVec S_ 1 := constantI S_ 1 1#1
  let main_v12 : IVec S_ 1 := (fun x v => Host.reduce IntOp.andi x v reducesTo_S4096x3_S_d0_1 h_S_) main_v11 main_c_2
  let main_v13 : FVec F S1x3 .f32 := (extractStridedSlice S1x3 ![0, 0] · slices_S4096x3_S1x3_0_0) main_arg0
  let main_v14 : FVec F S4096x3 .f32 := broadcastInDim S4096x3 ![0, 1] bcast_S1x3_S4096x3_0_1 main_v13
  let main_v15 : IVec S4096x3 1 := cmpf .oeq main_arg1 main_v14
  let main_c_3 : IVec S_ 1 := constantI S_ 1 1#1
  let main_v16 : IVec S_ 1 := (fun x v => Host.reduce IntOp.andi x v reducesTo_S4096x3_S_d0_1 h_S_) main_v15 main_c_3
  let main_v17 : IVec S_ 1 := andi main_v12 main_v16
  fn_part1 (F := F) main_v8 main_v17
-- ==== Kernel.lean ====
abbrev S4096x3 : Shape := ⟨2, ![4096, 3]⟩
abbrev S4096x1 : Shape := ⟨2, ![4096, 1]⟩
abbrev S4096 : Shape := ⟨1, ![4096]⟩
abbrev S_ : Shape := ⟨0, ![]⟩
abbrev S8192x3 : Shape := ⟨2, ![8192, 3]⟩
abbrev S8192 : Shape := ⟨1, ![8192]⟩
abbrev S3 : Shape := ⟨1, ![3]⟩
abbrev S1x4096 : Shape := ⟨2, ![1, 4096]⟩
abbrev S3x4096 : Shape := ⟨2, ![3, 4096]⟩
abbrev S4096x2 : Shape := ⟨2, ![4096, 2]⟩
abbrev S2x4096 : Shape := ⟨2, ![2, 4096]⟩
abbrev S32x128 : Shape := ⟨2, ![32, 128]⟩
abbrev S1024x3 : Shape := ⟨2, ![1024, 3]⟩
abbrev S3x1024 : Shape := ⟨2, ![3, 1024]⟩
abbrev S1024x2 : Shape := ⟨2, ![1024, 2]⟩
abbrev S2x1024 : Shape := ⟨2, ![2, 1024]⟩
abbrev S8x128 : Shape := ⟨2, ![8, 128]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩
abbrev S1 : Shape := ⟨1, ![1]⟩
abbrev S1x1 : Shape := ⟨2, ![1, 1]⟩

abbrev nBuf : Space → Nat
  | .hbm => 119
  | .vmem => 10
  | .smem => 0
  | _ => 0

abbrev bufTy : (tb : Table) → Fin (tcTables nBuf tb) → BufTy
  | .hbm, ⟨0, _⟩ => ⟨S4096x3, .f32⟩
  | .hbm, ⟨1, _⟩ => ⟨S4096x3, .f32⟩
  | .hbm, ⟨2, _⟩ => ⟨S4096x1, .f32⟩
  | .hbm, ⟨3, _⟩ => ⟨S4096, .f32⟩
  | .hbm, ⟨4, _⟩ => ⟨S4096x1, .f32⟩
  | .hbm, ⟨5, _⟩ => ⟨S4096, .f32⟩
  | .hbm, ⟨6, _⟩ => ⟨S4096x1, .f32⟩
  | .hbm, ⟨7, _⟩ => ⟨S4096, .f32⟩
  | .hbm, ⟨8, _⟩ => ⟨S_, .f32⟩
  | .hbm, ⟨9, _⟩ => ⟨S4096, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S4096, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S4096, .f32⟩
  | .hbm, ⟨19, _⟩ => ⟨S_, .f32⟩
  | .hbm, ⟨20, _⟩ => ⟨S4096, .f32⟩
  | .hbm, ⟨21, _⟩ => ⟨S4096, .f32⟩
  | .hbm, ⟨22, _⟩ => ⟨S4096, .f32⟩
  | .hbm, ⟨23, _⟩ => ⟨S4096, .f32⟩
  | .hbm, ⟨24, _⟩ => ⟨S_, .f32⟩
  | .hbm, ⟨25, _⟩ => ⟨S4096, .f32⟩
  | .hbm, ⟨26, _⟩ => ⟨S4096, .f32⟩
  | .hbm, ⟨27, _⟩ => ⟨S4096, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S4096x1, .f32⟩
  | .hbm, ⟨35, _⟩ => ⟨S4096, .f32⟩
  | .hbm, ⟨36, _⟩ => ⟨S4096x1, .f32⟩
  | .hbm, ⟨37, _⟩ => ⟨S4096, .f32⟩
  | .hbm, ⟨38, _⟩ => ⟨S4096x1, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096, .f32⟩
  | .hbm, ⟨44, _⟩ => ⟨S_, .f32⟩
  | .hbm, ⟨45, _⟩ => ⟨S4096, .f32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S4096, .f32⟩
  | .hbm, ⟨51, _⟩ => ⟨S_, .f32⟩
  | .hbm, ⟨52, _⟩ => ⟨S4096, .f32⟩
  | .hbm, ⟨53, _⟩ => ⟨S4096, .f32⟩
  | .hbm, ⟨54, _⟩ => ⟨S4096, .f32⟩
  | .hbm, ⟨55, _⟩ => ⟨S4096, .f32⟩
  | .hbm, ⟨56, _⟩ => ⟨S_, .f32⟩
  | .hbm, ⟨57, _⟩ => ⟨S4096, .f32⟩
  | .hbm, ⟨58, _⟩ => ⟨S4096, .f32⟩
  | .hbm, ⟨59, _⟩ => ⟨S4096, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S4096, .f32⟩
  | .hbm, ⟨65, _⟩ => ⟨S4096, .f32⟩
  | .hbm, ⟨66, _⟩ => ⟨S8192x3, .f32⟩
  | .hbm, ⟨67, _⟩ => ⟨S8192x3, .f32⟩
  | .hbm, ⟨68, _⟩ => ⟨S_, .f32⟩
  | .hbm, ⟨69, _⟩ => ⟨S8192, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S3, .f32⟩
  | .hbm, ⟨74, _⟩ => ⟨S3, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S4096x3, .f32⟩
  | .hbm, ⟨91, _⟩ => ⟨S_, .f32⟩
  | .hbm, ⟨92, _⟩ => ⟨S4096, .f32⟩
  | .hbm, ⟨93, _⟩ => ⟨S4096x1, .f32⟩
  | .hbm, ⟨94, _⟩ => ⟨S4096x3, .f32⟩
  | .hbm, ⟨95, _⟩ => ⟨S_, .f32⟩
  | .hbm, ⟨96, _⟩ => ⟨S4096, .f32⟩
  | .hbm, ⟨97, _⟩ => ⟨S4096x1, .f32⟩
  | .hbm, ⟨98, _⟩ => ⟨S1x4096, .f32⟩
  | .hbm, ⟨99, _⟩ => ⟨S4096x1, .f32⟩
  | .hbm, ⟨100, _⟩ => ⟨S4096x1, .f32⟩
  | .hbm, ⟨101, _⟩ => ⟨S1x4096, .f32⟩
  | .hbm, ⟨102, _⟩ => ⟨S1x4096, .f32⟩
  | .hbm, ⟨103, _⟩ => ⟨S3x4096, .f32⟩
  | .hbm, ⟨104, _⟩ => ⟨S_, .f32⟩
  | .hbm, ⟨105, _⟩ => ⟨S_, .f32⟩
  | .hbm, ⟨106, _⟩ => ⟨S3x4096, .f32⟩
  | .hbm, ⟨107, _⟩ => ⟨S3x4096, .f32⟩
  | .hbm, ⟨108, _⟩ => ⟨S4096x1, .f32⟩
  | .hbm, ⟨109, _⟩ => ⟨S1x4096, .f32⟩
  | .hbm, ⟨110, _⟩ => ⟨S4096x2, .f32⟩
  | .hbm, ⟨111, _⟩ => ⟨S2x4096, .f32⟩
  | .hbm, ⟨112, _⟩ => ⟨S32x128, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .local _ .vmem, ⟨0, _⟩ => ⟨S1024x3, .f32⟩
  | .local _ .vmem, ⟨1, _⟩ => ⟨S1024x3, .f32⟩
  | .local _ .vmem, ⟨2, _⟩ => ⟨S3x1024, .f32⟩
  | .local _ .vmem, ⟨3, _⟩ => ⟨S3x1024, .f32⟩
  | .local _ .vmem, ⟨4, _⟩ => ⟨S1024x2, .f32⟩
  | .local _ .vmem, ⟨5, _⟩ => ⟨S1024x2, .f32⟩
  | .local _ .vmem, ⟨6, _⟩ => ⟨S2x1024, .f32⟩
  | .local _ .vmem, ⟨7, _⟩ => ⟨S2x1024, .f32⟩
  | .local _ .vmem, ⟨8, _⟩ => ⟨S8x128, .f32⟩
  | .local _ .vmem, ⟨9, _⟩ => ⟨S8x128, .f32⟩
  | _, _ => ⟨S4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_6 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_7 : Ref sig .tc := ⟨.hbm, 44, rfl⟩
abbrev main_v34 : Ref sig .tc := ⟨.hbm, 45, rfl⟩
abbrev main_v35 : Ref sig .tc := ⟨.hbm, 46, rfl⟩
abbrev main_cst_8 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_9 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_10 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_11 : Ref sig .tc := ⟨.hbm, 60, rfl⟩
abbrev main_v46 : Ref sig .tc := ⟨.hbm, 61, rfl⟩
abbrev main_cst_12 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_13 : Ref sig .tc := ⟨.hbm, 68, rfl⟩
abbrev main_v52 : Ref sig .tc := ⟨.hbm, 69, rfl⟩
abbrev main_cst_14 : Ref sig .tc := ⟨.hbm, 70, rfl⟩
abbrev main_v53 : Ref sig .tc := ⟨.hbm, 71, rfl⟩
abbrev main_cst_15 : Ref sig .tc := ⟨.hbm, 72, rfl⟩
abbrev main_v54 : Ref sig .tc := ⟨.hbm, 73, rfl⟩
abbrev main_v55 : Ref sig .tc := ⟨.hbm, 74, rfl⟩
abbrev main_cst_16 : Ref sig .tc := ⟨.hbm, 75, rfl⟩
abbrev main_v56 : Ref sig .tc := ⟨.hbm, 76, rfl⟩
abbrev main_cst_17 : Ref sig .tc := ⟨.hbm, 77, rfl⟩
abbrev main_v57 : Ref sig .tc := ⟨.hbm, 78, rfl⟩
abbrev main_cst_18 : Ref sig .tc := ⟨.hbm, 79, rfl⟩
abbrev main_v58 : Ref sig .tc := ⟨.hbm, 80, rfl⟩
abbrev main_v59 : Ref sig .tc := ⟨.hbm, 81, rfl⟩
abbrev main_cst_19 : Ref sig .tc := ⟨.hbm, 82, rfl⟩
abbrev main_v60 : Ref sig .tc := ⟨.hbm, 83, rfl⟩
abbrev main_cst_20 : Ref sig .tc := ⟨.hbm, 84, rfl⟩
abbrev main_v61 : Ref sig .tc := ⟨.hbm, 85, rfl⟩
abbrev main_cst_21 : Ref sig .tc := ⟨.hbm, 86, rfl⟩
abbrev main_v62 : Ref sig .tc := ⟨.hbm, 87, rfl⟩
abbrev main_cst_22 : Ref sig .tc := ⟨.hbm, 88, rfl⟩
abbrev main_v63 : Ref sig .tc := ⟨.hbm, 89, rfl⟩
abbrev main_v64 : Ref sig .tc := ⟨.hbm, 90, rfl⟩
abbrev main_cst_23 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_24 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_25 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_26 : Ref sig .tc := ⟨.hbm, 113, rfl⟩
abbrev main_v84 : Ref sig .tc := ⟨.hbm, 114, rfl⟩
abbrev main_cst_27 : Ref sig .tc := ⟨.hbm, 115, rfl⟩
abbrev main_v85 : Ref sig .tc := ⟨.hbm, 116, rfl⟩
abbrev main_cst_28 : Ref sig .tc := ⟨.hbm, 117, rfl⟩
abbrev main_v86 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  slices_S4096x3_S4096x1_0_0 : S4096x3.Slices ![0, 0] S4096x1
  shapeCasts_S4096x1_S4096 : S4096x1.ShapeCasts S4096
  slices_S4096x3_S4096x1_0_1 : S4096x3.Slices ![0, 1] S4096x1
  slices_S4096x3_S4096x1_0_2 : S4096x3.Slices ![0, 2] S4096x1
  bcast_S_S4096 : S_.BroadcastsInDim S4096 (![] : Fin 0 → Fin S4096.rank)
  reducesTo_S4096_S_d0 : S4096.ReducesTo [0] S_
  h_S_ : 0 < S_.numel
  concatenates_S4096x3_S4096x3_S8192x3_d0 : Shape.Concatenates [S4096x3, S4096x3] S8192x3 0
  reducesTo_S8192x3_S8192_d1 : S8192x3.ReducesTo [1] S8192
  reducesTo_S8192_S_d0 : S8192.ReducesTo [0] S_
  reducesTo_S8192x3_S3_d0 : S8192x3.ReducesTo [0] S3
  reducesTo_S3_S_d0 : S3.ReducesTo [0] S_
  reducesTo_S4096x3_S4096_d1 : S4096x3.ReducesTo [1] S4096
  bcast_S4096_S4096x1_0 : S4096.BroadcastsInDim S4096x1 (![0] : Fin 1 → Fin S4096x1.rank)
  transposes_S4096x1_S1x4096_1_0 : S4096x1.Transposes [1, 0] S1x4096
  bcast_S_S4096x1 : S_.BroadcastsInDim S4096x1 (![] : Fin 0 → Fin S4096x1.rank)
  bcast_S_S1x4096 : S_.BroadcastsInDim S1x4096 (![] : Fin 0 → Fin S1x4096.rank)
  transposes_S4096x3_S3x4096_1_0 : S4096x3.Transposes [1, 0] S3x4096
  bcast_S_S3x4096 : S_.BroadcastsInDim S3x4096 (![] : Fin 0 → Fin S3x4096.rank)
  bcast_S4096_S1x4096_1 : S4096.BroadcastsInDim S1x4096 (![1] : Fin 1 → Fin S1x4096.rank)
  concatenates_S4096x1_S4096x1_S4096x2_d1 : Shape.Concatenates [S4096x1, S4096x1] S4096x2 1
  concatenates_S1x4096_S1x4096_S2x4096_d0 : Shape.Concatenates [S1x4096, S1x4096] S2x4096 0
  inb_S8x128_S8x128_0_0 : ∀ a, (![0, 0] : Fin 2 → Nat) a + S8x128.size a ≤ S8x128.size a
  h_S8x128 : 0 < S8x128.numel
  inb_S1024x3_S1024x3_0_0 : ∀ a, (![0, 0] : Fin 2 → Nat) a + S1024x3.size a ≤ S1024x3.size a
  h_S1024x3 : 0 < S1024x3.numel
  inb_S3x1024_S3x1024_0_0 : ∀ a, (![0, 0] : Fin 2 → Nat) a + S3x1024.size a ≤ S3x1024.size a
  h_S3x1024 : 0 < S3x1024.numel
  shapeCasts_S3x1024_S3x1024 : S3x1024.ShapeCasts S3x1024
  slices_S1024x3_o0_0_S1024x1 : S1024x3.Slices ![0, 0] S1024x1
  slices_S3x1024_o0_0_S1x1024 : S3x1024.Slices ![0, 0] S1x1024
  broadcasts_S1024x1_S1024x1024 : S1024x1.Broadcasts S1024x1024
  broadcasts_S1x1024_S1024x1024 : S1x1024.Broadcasts S1024x1024
  slices_S1024x3_o0_1_S1024x1 : S1024x3.Slices ![0, 1] S1024x1
  slices_S3x1024_o1_0_S1x1024 : S3x1024.Slices ![1, 0] S1x1024
  slices_S1024x3_o0_2_S1024x1 : S1024x3.Slices ![0, 2] S1024x1
  slices_S3x1024_o2_0_S1x1024 : S3x1024.Slices ![2, 0] S1x1024
  inb_S1024x2_S1024x1_0_0 : ∀ a, (![0, 0] : Fin 2 → Nat) a + S1024x1.size a ≤ S1024x2.size a
  h_S1024x1 : 0 < S1024x1.numel
  shapeCasts_S1024x1_S1024x1 : S1024x1.ShapeCasts S1024x1
  inb_S1024x2_S1024x1_0_1 : ∀ a, (![0, 1] : Fin 2 → Nat) a + S1024x1.size a ≤ S1024x2.size a
  inb_S2x1024_S1x1024_0_0 : ∀ a, (![0, 0] : Fin 2 → Nat) a + S1x1024.size a ≤ S2x1024.size a
  h_S1x1024 : 0 < S1x1024.numel
  shapeCasts_S1x1024_S1x1024 : S1x1024.ShapeCasts S1x1024
  inb_S2x1024_S1x1024_1_0 : ∀ a, (![1, 0] : Fin 2 → Nat) a + S1x1024.size a ≤ S2x1024.size a
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  shapeCasts_S8x128_S8x128 : S8x128.ShapeCasts S8x128
  shapeCasts_S1x1_S1x1 : S1x1.ShapeCasts S1x1
  broadcasts_S1x1_S8x128 : S1x1.Broadcasts S8x128
  reducesTo_S32x128_S_d0_1 : S32x128.ReducesTo [0, 1] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3.size a ≤ S4096x3.size a
  hwx0_0 : ∀ i : grid0.Coords, EltTy.bits .f32 = 32 ∨ (Rect.block (s := S4096x3) S1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x1024.size a ≤ S3x4096.size a
  hwx0_1 : ∀ i : grid0.Coords, EltTy.bits .f32 = 32 ∨ (Rect.block (s := S3x4096) S3x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2.size a ≤ S4096x2.size a
  hwx0_2 : ∀ i : grid0.Coords, EltTy.bits .f32 = 32 ∨ (Rect.block (s := S4096x2) S1024x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x1024.size a ≤ S2x4096.size a
  hwx0_3 : ∀ i : grid0.Coords, EltTy.bits .f32 = 32 ∨ (Rect.block (s := S2x4096) S2x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S32x128.size a
  hwx0_4 : ∀ i : grid0.Coords, EltTy.bits .f32 = 32 ∨ (Rect.block (s := S32x128) S8x128.size (cc0_transform_4 i) (hinb0_4 i)).WholeWords (EltTy.packing .f32)

variable [Facts₀]

abbrev win0_0 : Pipeline.Window sig grid0 :=
  Pipeline.Window.ofSpec (Memref.whole main_arg0) S1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v78) S3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v81) S1024x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v82) S2x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v83) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x3 : Shape := ⟨2, ![4096, 3]⟩
abbrev S4096x1 : Shape := ⟨2, ![4096, 1]⟩
abbrev S4096 : Shape := ⟨1, ![4096]⟩
abbrev S_ : Shape := ⟨0, ![]⟩
abbrev S8192x3 : Shape := ⟨2, ![8192, 3]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S3x8192 : Shape := ⟨2, ![3, 8192]⟩
abbrev S4096x4096 : Shape := ⟨2, ![4096, 4096]⟩
abbrev S1x4096 : Shape := ⟨2, ![1, 4096]⟩

abbrev nBuf : Space → Nat
  | .hbm => 135
  | .vmem => 0
  | .smem => 0
  | _ => 0

abbrev hbmTy0_0 (i : Nat) : BufTy := match i % 128 with
  | 0 => ⟨S4096x3, .f32⟩
  | 1 => ⟨S4096x3, .f32⟩
  | 2 => ⟨S4096x1, .f32⟩
  | 3 => ⟨S4096, .f32⟩
  | 4 => ⟨S4096x1, .f32⟩
  | 5 => ⟨S4096, .f32⟩
  | 6 => ⟨S4096x1, .f32⟩
  | 7 => ⟨S4096, .f32⟩
  | 8 => ⟨S_, .f32⟩
  | 9 => ⟨S4096, .f32⟩
  | 10 => ⟨S4096, .f32⟩
  | 11 => ⟨S4096, .f32⟩
  | 12 => ⟨S_, .f32⟩
  | 13 => ⟨S4096, .f32⟩
  | 14 => ⟨S4096, .f32⟩
  | 15 => ⟨S_, .f32⟩
  | 16 => ⟨S4096, .f32⟩
  | 17 => ⟨S4096, .f32⟩
  | 18 => ⟨S4096, .f32⟩
  | 19 => ⟨S_, .f32⟩
  | 20 => ⟨S4096, .f32⟩
  | 21 => ⟨S4096, .f32⟩
  | 22 => ⟨S4096, .f32⟩
  | 23 => ⟨S4096, .f32⟩
  | 24 => ⟨S_, .f32⟩
  | 25 => ⟨S4096, .f32⟩
  | 26 => ⟨S4096, .f32⟩
  | 27 => ⟨S4096, .f32⟩
  | 28 => ⟨S_, .f32⟩
  | 29 => ⟨S_, .f32⟩
  | 30 => ⟨S_, .f32⟩
  | 31 => ⟨S_, .f32⟩
  | 32 => ⟨S4096, .f32⟩
  | 33 => ⟨S4096, .f32⟩
  | 34 => ⟨S4096x1, .f32⟩
  | 35 => ⟨S4096, .f32⟩
  | 36 => ⟨S4096x1, .f32⟩
  | 37 => ⟨S4096, .f32⟩
  | 38 => ⟨S4096x1, .f32⟩
  | 39 => ⟨S4096, .f32⟩
  | 40 => ⟨S_, .f32⟩
  | 41 => ⟨S4096, .f32⟩
  | 42 => ⟨S4096, .f32⟩
  | 43 => ⟨S4096, .f32⟩
  | 44 => ⟨S_, .f32⟩
  | 45 => ⟨S4096, .f32⟩
  | 46 => ⟨S4096, .f32⟩
  | 47 => ⟨S_, .f32⟩
  | 48 => ⟨S4096, .f32⟩
  | 49 => ⟨S4096, .f32⟩
  | 50 => ⟨S4096, .f32⟩
  | 51 => ⟨S_, .f32⟩
  | 52 => ⟨S4096, .f32⟩
  | 53 => ⟨S4096, .f32⟩
  | 54 => ⟨S4096, .f32⟩
  | 55 => ⟨S4096, .f32⟩
  | 56 => ⟨S_, .f32⟩
  | 57 => ⟨S4096, .f32⟩
  | 58 => ⟨S4096, .f32⟩
  | 59 => ⟨S4096, .f32⟩
  | 60 => ⟨S_, .f32⟩
  | 61 => ⟨S_, .f32⟩
  | 62 => ⟨S_, .f32⟩
  | 63 => ⟨S_, .f32⟩
  | 64 => ⟨S4096, .f32⟩
  | 65 => ⟨S4096, .f32⟩
  | 66 => ⟨S8192x3, .f32⟩
  | 67 => ⟨S8192x3, .f32⟩
  | 68 => ⟨S_, .f32⟩
  | 69 => ⟨S8192, .f32⟩
  | 70 => ⟨S8192x1, .f32⟩
  | 71 => ⟨S1x8192, .f32⟩
  | 72 => ⟨S8192x8192, .f32⟩
  | 73 => ⟨S8192x8192, .f32⟩
  | 74 => ⟨S8192x8192, .f32⟩
  | 75 => ⟨S3x8192, .f32⟩
  | 76 => ⟨S8192x8192, .f32⟩
  | 77 => ⟨S_, .f32⟩
  | 78 => ⟨S8192x8192, .f32⟩
  | 79 => ⟨S8192x8192, .f32⟩
  | 80 => ⟨S8192x8192, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S4096x4096, .f32⟩
  | 88 => ⟨S_, .f32⟩
  | 89 => ⟨S4096x4096, .f32⟩
  | 90 => ⟨S4096x4096, .f32⟩
  | 91 => ⟨S_, .f32⟩
  | 92 => ⟨S_, .f32⟩
  | 93 => ⟨S4096x4096, .f32⟩
  | 94 => ⟨S4096x4096, .f32⟩
  | 95 => ⟨S4096x4096, .f32⟩
  | 96 => ⟨S4096x4096, .f32⟩
  | 97 => ⟨S4096x4096, .f32⟩
  | 98 => ⟨S_, .f32⟩
  | 99 => ⟨S_, .f32⟩
  | 100 => ⟨S4096x4096, .f32⟩
  | 101 => ⟨S4096x4096, .f32⟩
  | 102 => ⟨S4096x4096, .f32⟩
  | 103 => ⟨S4096x4096, .f32⟩
  | 104 => ⟨S4096x4096, .f32⟩
  | 105 => ⟨S_, .f32⟩
  | 106 => ⟨S_, .f32⟩
  | 107 => ⟨S4096x4096, .f32⟩
  | 108 => ⟨S4096x4096, .f32⟩
  | 109 => ⟨S4096x4096, .f32⟩
  | 110 => ⟨S4096x4096, .f32⟩
  | 111 => ⟨S4096x4096, .f32⟩
  | 112 => ⟨S_, .f32⟩
  | 113 => ⟨S_, .f32⟩
  | 114 => ⟨S4096x4096, .f32⟩
  | 115 => ⟨S4096x4096, .f32⟩
  | 116 => ⟨S4096x4096, .f32⟩
  | 117 => ⟨S4096x4096, .f32⟩
  | 118 => ⟨S4096x4096, .f32⟩
  | 119 => ⟨S_, .f32⟩
  | 120 => ⟨S_, .f32⟩
  | 121 => ⟨S4096x4096, .f32⟩
  | 122 => ⟨S4096x4096, .f32⟩
  | 123 => ⟨S4096x4096, .f32⟩
  | 124 => ⟨S4096x4096, .f32⟩
  | 125 => ⟨S4096x1, .f32⟩
  | 126 => ⟨S1x4096, .f32⟩
  | 127 => ⟨S4096x4096, .f32⟩
  | _ => ⟨S4096x3, .f32⟩

abbrev hbmTy0_1 (i : Nat) : BufTy := match i % 128 with
  | 0 => ⟨S4096x4096, .f32⟩
  | 1 => ⟨S4096x4096, .f32⟩
  | 2 => ⟨S4096x4096, .f32⟩
  | 3 => ⟨S_, .f32⟩
  | 4 => ⟨S_, .f32⟩
  | 5 => ⟨S_, .f32⟩
  | 6 => ⟨S_, .f32⟩
  | _ => ⟨S4096x3, .f32⟩

abbrev hbmTy (i : Nat) : BufTy := match i / 128 with
  | 0 => hbmTy0_0 i
  | 1 => hbmTy0_1 i
  | _ => ⟨S4096x3, .f32⟩

abbrev bufTy : (tb : Table) → Fin (tcTables nBuf tb) → BufTy
  | .hbm, ⟨i, _⟩ => hbmTy i
  | _, _ => ⟨S4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_6 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_7 : Ref sig .tc := ⟨.hbm, 44, rfl⟩
abbrev main_v34 : Ref sig .tc := ⟨.hbm, 45, rfl⟩
abbrev main_v35 : Ref sig .tc := ⟨.hbm, 46, rfl⟩
abbrev main_cst_8 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_9 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_10 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_11 : Ref sig .tc := ⟨.hbm, 60, rfl⟩
abbrev main_v46 : Ref sig .tc := ⟨.hbm, 61, rfl⟩
abbrev main_cst_12 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_13 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_14 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_15 : Ref sig .tc := ⟨.hbm, 81, rfl⟩
abbrev main_v63 : Ref sig .tc := ⟨.hbm, 82, rfl⟩
abbrev main_cst_16 : Ref sig .tc := ⟨.hbm, 83, rfl⟩
abbrev main_v64 : Ref sig .tc := ⟨.hbm, 84, rfl⟩
abbrev main_cst_17 : Ref sig .tc := ⟨.hbm, 85, rfl⟩
abbrev main_v65 : Ref sig .tc := ⟨.hbm, 86, rfl⟩
abbrev main_v66 : Ref sig .tc := ⟨.hbm, 87, rfl⟩
abbrev main_cst_18 : Ref sig .tc := ⟨.hbm, 88, rfl⟩
abbrev main_v67 : Ref sig .tc := ⟨.hbm, 89, rfl⟩
abbrev main_v68 : Ref sig .tc := ⟨.hbm, 90, rfl⟩
abbrev main_cst_19 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_20 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_21 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_22 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_cst_23 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_cst_24 : Ref sig .tc := ⟨.hbm, 131, rfl⟩
abbrev main_v104 : Ref sig .tc := ⟨.hbm, 132, rfl⟩
abbrev main_cst_25 : Ref sig .tc := ⟨.hbm, 133, rfl⟩
abbrev main_v105 : Ref sig .tc := ⟨.hbm, 134, rfl⟩

abbrev nD : Nat := 1
abbrev τ : Topo := Topo.v7x

variable {F : FTy → Type} [FloatOps F]

class Facts₀ : Prop where
  slices_S4096x3_S4096x1_0_0 : S4096x3.Slices ![0, 0] S4096x1
  shapeCasts_S4096x1_S4096 : S4096x1.ShapeCasts S4096
  slices_S4096x3_S4096x1_0_1 : S4096x3.Slices ![0, 1] S4096x1
  slices_S4096x3_S4096x1_0_2 : S4096x3.Slices ![0, 2] S4096x1
  bcast_S_S4096 : S_.BroadcastsInDim S4096 (![] : Fin 0 → Fin S4096.rank)
  reducesTo_S4096_S_d0 : S4096.ReducesTo [0] S_
  h_S_ : 0 < S_.numel
  concatenates_S4096x3_S4096x3_S8192x3_d0 : Shape.Concatenates [S4096x3, S4096x3] S8192x3 0
  reducesTo_S8192x3_S8192_d1 : S8192x3.ReducesTo [1] S8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x3_S3x8192_1_0 : S8192x3.Transposes [1, 0] S3x8192
  bcast_S_S8192x8192 : S_.BroadcastsInDim S8192x8192 (![] : Fin 0 → Fin S8192x8192.rank)
  reducesTo_S8192x8192_S_d0_1 : S8192x8192.ReducesTo [0, 1] S_
  slices_S8192x8192_S4096x4096_0_4096 : S8192x8192.Slices ![0, 4096] S4096x4096
  bcast_S_S4096x4096 : S_.BroadcastsInDim S4096x4096 (![] : Fin 0 → Fin S4096x4096.rank)
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  reducesTo_S4096x4096_S_d0_1 : S4096x4096.ReducesTo [0, 1] S_
  dot_S8192x3_S3x8192_S8192x8192_1_0_0_1_n_n_wf : DotDims.WF S8192x3 S3x8192 S8192x8192 [1] [0] [0] [1] [] []

variable [Facts₀]

def dot_S8192x3_S3x8192_S8192x8192_1_0_0_1_n_n : DotDims S8192x3 S3x8192 S8192x8192 where
  lhsContracting := [1]
  rhsContracting := [0]
  lhsNonContracting := [0]
  rhsNonContracting := [1]
  lhsBatch := []
  rhsBatch := []
  wf := dot_S8192x3_S3x8192_S8192x8192_1_0_0_1_n_n_wf

class Facts : Prop extends Facts₀ where

variable [Facts]
-- ==== Proof.Spec.lean ====
/-
  The mathematics of the certificate, over the reals, with no program in sight.

  Two samples of 4096 points of ℝ³ (`S`, `T`) and two weight vectors (`u`, `v`) are given. The pooled sample
  `pool S T` lists the 8192 points, `S` first. With `sqn P i = |P i|²` and the squared distance written the way both
  programs compute it, `dist2 P i j = (|P i|² + |P j|²) - 2 ⟨P i, P j⟩`, the bandwidth is the mean squared distance over
  the 8192² - 8192 ordered pairs of distinct points, divided by 4.

  One program (`lossRef`) sums, over the pairs (i, j) of a point of `S` and a point of `T`, the five Gaussians
  `exp (-d / (bw · 2^k))`, k = 0 … 4, weighted by `u i · v j`, and multiplies by -2.

  The other (`lossKer`) obtains the total squared distance from the moments of the pooled sample
  (`2n Σ|P i|² - 2 Σ_d (Σ_i P i d)²`, `bwKer`), folds `c = -1 / (16 bw)` into the operands so that the exponent of the
  widest Gaussian is `c|S i|² + c|T j|² + Σ_d S i d · (T j d · (-2c))` (`expo`), gets the four narrower Gaussians by
  squaring (`chain5`), sums tile by tile over a 4 × 4 grid of 1024 × 1024 tiles (`partialK`, `blockSum`), writes each
  row block's sum into every entry of an 8 × 128 block, and finally divides the sum of the 32 × 128 entries by 1024.
-/
import Mathlib.Analysis.SpecialFunctions.Exp
import Mathlib.Algebra.BigOperators.Fin
import Mathlib.Algebra.BigOperators.Ring.Finset
import Mathlib.Algebra.Order.BigOperators.Ring.Finset
import Mathlib.Tactic.Ring
import Mathlib.Tactic.Linarith
import Mathlib.Tactic.FieldSimp

noncomputable section

namespace Cert.Mmd

open BigOperators

/-- Row `i` of the pooled sample: the 4096 rows of `S`, then the 4096 rows of `T`. -/
def pool (S T : Fin 4096 → Fin 3 → ℝ) (i : Fin 8192) (k : Fin 3) : ℝ :=
  if h : i.val < 4096 then S ⟨i.val, h⟩ k else T ⟨i.val - 4096, by have := i.isLt; omega⟩ k

/-- Row `i` of `S` as a row of the pooled sample, and row `j` of `T`. -/
def lo (i : Fin 4096) : Fin 8192 := ⟨i.val, by have := i.isLt; omega⟩
def hi (j : Fin 4096) : Fin 8192 := ⟨4096 + j.val, by have := j.isLt; omega⟩

/-- The squared norm of row `i`. -/
def sqn {n : ℕ} (P : Fin n → Fin 3 → ℝ) (i : Fin n) : ℝ := ∑ k, P i k * P i k

/-- The squared distance of rows `i` and `j`, as the sum of the squared norms less twice the inner product. -/
def dist2 {n : ℕ} (P : Fin n → Fin 3 → ℝ) (i j : Fin n) : ℝ := (sqn P i + sqn P j) - 2 * ∑ k, P i k * P j k

/-- The bandwidth from the sum of all pairwise squared distances. -/
def bwRef (P : Fin 8192 → Fin 3 → ℝ) : ℝ := (∑ i, ∑ j, dist2 P i j) / 67100672 / 4

/-- The bandwidth from the moments of the sample: `2n Σ|P i|² - 2 Σ_d (Σ_i P i d)²`, n = 8192. -/
def bwKer (P : Fin 8192 → Fin 3 → ℝ) : ℝ :=
  (16384 * ∑ i, sqn P i - 2 * ∑ d, (∑ i, P i d) * (∑ i, P i d)) / 67100672 / 4

/-- Five Gaussians of the squared distance `L`, of bandwidths `bw, 2bw, 4bw, 8bw, 16bw`, summed in that order from 0. -/
def gram5 (bw L : ℝ) : ℝ :=
  ((((0 + Real.exp (-L / (bw * 1))) + Real.exp (-L / (bw * 2))) + Real.exp (-L / (bw * 4)))
    + Real.exp (-L / (bw * 8))) + Real.exp (-L / (bw * 16))

/-- The weighted sum of the Gaussians over the pairs (a row of `S`, a row of `T`), times -2. -/
def lossRef (S T : Fin 4096 → Fin 3 → ℝ) (u v : Fin 4096 → ℝ) : ℝ :=
  -2 * (0 + ∑ i, ∑ j, gram5 (bwRef (pool S T)) (dist2 (pool S T) (lo i) (hi j)) * (u i * v j))

/-- The scalar folded into the operands: `-1 / (16 bw)`. -/
def cK (P : Fin 8192 → Fin 3 → ℝ) : ℝ := -1 / (bwKer P * 16)

/-- The exponent of the widest Gaussian at the pair (i, j), from the pre-scaled operands. -/
def expo (S T : Fin 4096 → Fin 3 → ℝ) (i j : Fin 4096) : ℝ :=
  (cK (pool S T) * sqn S i + cK (pool S T) * sqn T j)
    + ((S i 0 * (T j 0 * (-2 * cK (pool S T))) + S i 1 * (T j 1 * (-2 * cK (pool S T))))
      + S i 2 * (T j 2 * (-2 * cK (pool S T))))

/-- `E + E² + E⁴ + E⁸ + E¹⁶` for `E = exp e`, each power the square of the one before. -/
def chain5 (e : ℝ) : ℝ :=
  ((((Real.exp e + Real.exp e * Real.exp e)
    + (Real.exp e * Real.exp e) * (Real.exp e * Real.exp e))
    + ((Real.exp e * Real.exp e) * (Real.exp e * Real.exp e)) * ((Real.exp e * Real.exp e) * (Real.exp e * Real.exp e)))
    + (((Real.exp e * Real.exp e) * (Real.exp e * Real.exp e)) * ((Real.exp e * Real.exp e) * (Real.exp e * Real.exp e)))
      * (((Real.exp e * Real.exp e) * (Real.exp e * Real.exp e)) * ((Real.exp e * Real.exp e) * (Real.exp e * Real.exp e))))

/-- Row `i` of row block `I` (1024 rows a block). -/
def at4 (I : Fin 4) (i : Fin 1024) : Fin 4096 := ⟨1024 * I.val + i.val, by have := I.isLt; have := i.isLt; omega⟩

/-- The weighted sum over the tile (I, J): rows first weighted by `v` along the tile's columns, then by `u`. -/
def partialK (S T : Fin 4096 → Fin 3 → ℝ) (u v : Fin 4096 → ℝ) (I J : Fin 4) : ℝ :=
  ∑ i : Fin 1024, (∑ j : Fin 1024, chain5 (expo S T (at4 I i) (at4 J j)) * v (at4 J j)) * u (at4 I i)

/-- What row block `I`'s accumulator holds after `n` tiles of its row: 0 before the first, then one tile more each time. -/
def accK (S T : Fin 4096 → Fin 3 → ℝ) (u v : Fin 4096 → ℝ) (I : Fin 4) : ℕ → ℝ
  | 0 => 0
  | n + 1 => accK S T u v I n + (if h : n < 4 then partialK S T u v I ⟨n, h⟩ else 0)

/-- Row block `I`'s sum over its four tiles. -/
def blockSum (S T : Fin 4096 → Fin 3 → ℝ) (u v : Fin 4096 → ℝ) (I : Fin 4) : ℝ := accK S T u v I 4

/-- The sum of the 32 × 128 output entries (entry (r, c) holds row block r / 8's sum) over 1024, times -2. -/
def lossKer (S T : Fin 4096 → Fin 3 → ℝ) (u v : Fin 4096 → ℝ) : ℝ :=
  -2 * ((0 + ∑ r : Fin 32, ∑ _c : Fin 128, blockSum S T u v ⟨r.val / 8, by have := r.isLt; omega⟩) / 1024)

end Cert.Mmd

end
-- ==== Proof.Algebra.lean ====
/-
  The real algebra behind the certificate: the two bandwidth formulas agree, the bandwidth of a sample that is not one
  repeated point is positive, and the tile-by-tile, squaring-chain loss is the pairwise five-Gaussian loss.
-/
import proofs.«415581_j7954279432506_3_alg».proof.Proof.Spec

noncomputable section

namespace Cert.Mmd

open BigOperators

/-! ### The bandwidth -/

/-- The sum of all pairwise squared distances of n points, from the moments of the sample. -/
private theorem sum_dist2 {n : ℕ} (P : Fin n → Fin 3 → ℝ) :
    ∑ i, ∑ j, dist2 P i j
      = 2 * (n : ℝ) * ∑ i, sqn P i - 2 * ∑ d, (∑ i, P i d) * (∑ i, P i d) := by
  have h1 : ∑ i : Fin n, ∑ j : Fin n, (sqn P i + sqn P j) = 2 * (n : ℝ) * ∑ i, sqn P i := by
    simp only [Finset.sum_add_distrib, Finset.sum_const, Finset.card_univ, Fintype.card_fin,
      nsmul_eq_mul, ← Finset.mul_sum]
    ring
  have h2 : ∑ i : Fin n, ∑ j : Fin n, ∑ k, P i k * P j k = ∑ d, (∑ i, P i d) * (∑ i, P i d) := by
    calc ∑ i : Fin n, ∑ j : Fin n, ∑ k, P i k * P j k
        = ∑ i : Fin n, ∑ k, ∑ j : Fin n, P i k * P j k :=
          Finset.sum_congr rfl fun i _ => Finset.sum_comm
      _ = ∑ k, ∑ i : Fin n, ∑ j : Fin n, P i k * P j k := Finset.sum_comm
      _ = ∑ d, (∑ i, P i d) * (∑ i, P i d) :=
          Finset.sum_congr rfl fun d _ => (Finset.sum_mul_sum _ _ _ _).symm
  unfold dist2
  simp only [Finset.sum_sub_distrib, ← Finset.mul_sum]
  rw [h1, h2]

/-- Σ_ij ((|P i|² + |P j|²) - 2⟨P i, P j⟩) = 2n Σ_i |P i|² - 2 Σ_d (Σ_i P i d)² with n = 8192, so the two bandwidths agree. -/
theorem bw_moments (P : Fin 8192 → Fin 3 → ℝ) : bwKer P = bwRef P := by
  unfold bwKer bwRef
  rw [sum_dist2]
  push_cast
  ring

/-- The squared distance is the sum of the squared coordinate differences. -/
private theorem dist2_eq_sq {n : ℕ} (P : Fin n → Fin 3 → ℝ) (i j : Fin n) :
    dist2 P i j = ∑ k, (P i k - P j k) * (P i k - P j k) := by
  unfold dist2 sqn
  rw [Finset.mul_sum, ← Finset.sum_add_distrib, ← Finset.sum_sub_distrib]
  exact Finset.sum_congr rfl fun k _ => by ring

private theorem dist2_nonneg {n : ℕ} (P : Fin n → Fin 3 → ℝ) (i j : Fin n) : 0 ≤ dist2 P i j := by
  rw [dist2_eq_sq]
  exact Finset.sum_nonneg fun k _ => mul_self_nonneg _

/-- A sample that is not one repeated point has a positive bandwidth. -/
theorem bw_pos (P : Fin 8192 → Fin 3 → ℝ) (h : ∃ i k, P i k ≠ P 0 k) : 0 < bwRef P := by
  obtain ⟨i, k, hik⟩ := h
  have hne : P i k - P 0 k ≠ 0 := sub_ne_zero.mpr hik
  have hterm : 0 < (P i k - P 0 k) * (P i k - P 0 k) := mul_self_pos.mpr hne
  have h1 : (P i k - P 0 k) * (P i k - P 0 k) ≤ dist2 P i 0 := by
    rw [dist2_eq_sq]
    exact Finset.single_le_sum (f := fun k => (P i k - P 0 k) * (P i k - P 0 k))
      (fun k _ => mul_self_nonneg _) (Finset.mem_univ k)
  have h2 : dist2 P i 0 ≤ ∑ j, dist2 P i j :=
    Finset.single_le_sum (f := fun j => dist2 P i j) (fun j _ => dist2_nonneg P i j) (Finset.mem_univ 0)
  have h3 : ∑ j, dist2 P i j ≤ ∑ i, ∑ j, dist2 P i j :=
    Finset.single_le_sum (f := fun i => ∑ j, dist2 P i j)
      (fun i _ => Finset.sum_nonneg fun j _ => dist2_nonneg P i j) (Finset.mem_univ i)
  have hpos : 0 < ∑ i, ∑ j, dist2 P i j := lt_of_lt_of_le hterm (h1.trans (h2.trans h3))
  unfold bwRef
  exact div_pos (div_pos hpos (by norm_num)) (by norm_num)

/-! ### The pooled sample at a row of S and at a row of T -/

private theorem pool_lo (S T : Fin 4096 → Fin 3 → ℝ) (i : Fin 4096) (k : Fin 3) :
    pool S T (lo i) k = S i k := by
  have h : (lo i).val < 4096 := i.isLt
  simp only [pool, dif_pos h]
  rfl

private theorem pool_hi (S T : Fin 4096 → Fin 3 → ℝ) (j : Fin 4096) (k : Fin 3) :
    pool S T (hi j) k = T j k := by
  have h : ¬ (hi j).val < 4096 := by
    show ¬ (4096 + j.val < 4096)
    omega
  simp only [pool, dif_neg h]
  have hj : (⟨(hi j).val - 4096, by have := (hi j).isLt; omega⟩ : Fin 4096) = j := by
    apply Fin.ext
    show 4096 + j.val - 4096 = j.val
    omega
  exact congrArg (fun x => T x k) hj

private theorem dist2_pool (S T : Fin 4096 → Fin 3 → ℝ) (i j : Fin 4096) :
    dist2 (pool S T) (lo i) (hi j) = (sqn S i + sqn T j) - 2 * ∑ k, S i k * T j k := by
  unfold dist2 sqn
  simp only [pool_lo, pool_hi]

/-- The exponent built from the pre-scaled operands is the scalar times the squared distance. -/
private theorem expo_eq (S T : Fin 4096 → Fin 3 → ℝ) (i j : Fin 4096) :
    expo S T i j = cK (pool S T) * dist2 (pool S T) (lo i) (hi j) := by
  rw [dist2_pool]
  unfold expo sqn
  generalize cK (pool S T) = c
  simp only [Fin.sum_univ_three]
  ring

/-! ### The squaring chain -/

private theorem chain5_eq (e : ℝ) :
    chain5 e = Real.exp e + Real.exp (2 * e) + Real.exp (4 * e) + Real.exp (8 * e) + Real.exp (16 * e) := by
  have h2 : Real.exp e * Real.exp e = Real.exp (2 * e) := by
    rw [← Real.exp_add]; congr 1; ring
  have h4 : Real.exp (2 * e) * Real.exp (2 * e) = Real.exp (4 * e) := by
    rw [← Real.exp_add]; congr 1; ring
  have h8 : Real.exp (4 * e) * Real.exp (4 * e) = Real.exp (8 * e) := by
    rw [← Real.exp_add]; congr 1; ring
  have h16 : Real.exp (8 * e) * Real.exp (8 * e) = Real.exp (16 * e) := by
    rw [← Real.exp_add]; congr 1; ring
  unfold chain5
  rw [h2, h4, h8, h16]

/-- With c = -1 / (16 bw) the chain at c L is the five Gaussians of L, in the opposite order. -/
private theorem chain5_gram5 (bw L : ℝ) (hbw : bw ≠ 0) :
    chain5 ((-1 / (bw * 16)) * L) = gram5 bw L := by
  have e1 : 16 * ((-1 / (bw * 16)) * L) = -L / (bw * 1) := by field_simp
  have e2 : 8 * ((-1 / (bw * 16)) * L) = -L / (bw * 2) := by field_simp; ring
  have e4 : 4 * ((-1 / (bw * 16)) * L) = -L / (bw * 4) := by field_simp; ring
  have e8 : 2 * ((-1 / (bw * 16)) * L) = -L / (bw * 8) := by field_simp; ring
  have e16 : (-1 / (bw * 16)) * L = -L / (bw * 16) := by field_simp
  rw [chain5_eq, e1, e2, e4, e8, e16]
  unfold gram5
  ring

private theorem chain5_expo (S T : Fin 4096 → Fin 3 → ℝ) (h : bwRef (pool S T) ≠ 0) (i j : Fin 4096) :
    chain5 (expo S T i j) = gram5 (bwRef (pool S T)) (dist2 (pool S T) (lo i) (hi j)) := by
  rw [expo_eq, cK, bw_moments]
  exact chain5_gram5 _ _ h

/-! ### Regrouping the sums -/

/-- A row of the 4096 as (row block, row in the block). -/
private def eqvRows : Fin 4 × Fin 1024 ≃ Fin 4096 where
  toFun p := at4 p.1 p.2
  invFun r := (⟨r.val / 1024, by have := r.isLt; omega⟩, ⟨r.val % 1024, by omega⟩)
  left_inv p := by
    obtain ⟨I, i⟩ := p
    have hI := I.isLt
    have hi := i.isLt
    refine Prod.ext (Fin.ext ?_) (Fin.ext ?_)
    · show (1024 * I.val + i.val) / 1024 = I.val
      omega
    · show (1024 * I.val + i.val) % 1024 = i.val
      omega
  right_inv r := by
    apply Fin.ext
    show 1024 * (r.val / 1024) + r.val % 1024 = r.val
    omega

private theorem sum_at4 (g : Fin 4096 → ℝ) :
    ∑ i, g i = ∑ I : Fin 4, ∑ i : Fin 1024, g (at4 I i) := by
  rw [← Equiv.sum_comp eqvRows g, Fintype.sum_prod_type]
  rfl

/-- A row of the 32 as (row block, row in the block of 8). -/
private def eqvOut : Fin 4 × Fin 8 ≃ Fin 32 where
  toFun p := ⟨8 * p.1.val + p.2.val, by have := p.1.isLt; have := p.2.isLt; omega⟩
  invFun r := (⟨r.val / 8, by have := r.isLt; omega⟩, ⟨r.val % 8, by omega⟩)
  left_inv p := by
    obtain ⟨I, q⟩ := p
    have hI := I.isLt
    have hq := q.isLt
    refine Prod.ext (Fin.ext ?_) (Fin.ext ?_)
    · show (8 * I.val + q.val) / 8 = I.val
      omega
    · show (8 * I.val + q.val) % 8 = q.val
      omega
  right_inv r := by
    apply Fin.ext
    show 8 * (r.val / 8) + r.val % 8 = r.val
    omega

/-- The 32 × 128 entries hold each row block's value 1024 times. -/
private theorem sum_blocks (B : Fin 4 → ℝ) (hlt : ∀ r : Fin 32, r.val / 8 < 4) :
    ∑ r : Fin 32, ∑ _c : Fin 128, B ⟨r.val / 8, hlt r⟩ = 1024 * ∑ I, B I := by
  rw [← Equiv.sum_comp eqvOut (fun r : Fin 32 => ∑ _c : Fin 128, B ⟨r.val / 8, hlt r⟩),
    Fintype.sum_prod_type, Finset.mul_sum]
  refine Finset.sum_congr rfl fun I _ => ?_
  have hI : ∀ q : Fin 8, (⟨(eqvOut (I, q)).val / 8, hlt (eqvOut (I, q))⟩ : Fin 4) = I := by
    intro q
    have hI := I.isLt
    have hq := q.isLt
    apply Fin.ext
    show (8 * I.val + q.val) / 8 = I.val
    omega
  simp only [hI, Finset.sum_const, Finset.card_univ, Fintype.card_fin, nsmul_eq_mul]
  push_cast
  ring

private theorem blockSum_eq (S T : Fin 4096 → Fin 3 → ℝ) (u v : Fin 4096 → ℝ) (I : Fin 4) :
    blockSum S T u v I = ∑ J : Fin 4, partialK S T u v I J := by
  have step : ∀ (n : ℕ) (hn : n < 4),
      accK S T u v I (n + 1) = accK S T u v I n + partialK S T u v I ⟨n, hn⟩ := by
    intro n hn
    rw [accK, dif_pos hn]
  have h0 : accK S T u v I 0 = 0 := by rw [accK]
  have h1 := step 0 (by norm_num)
  have h2 := step 1 (by norm_num)
  have h3 := step 2 (by norm_num)
  have h4 := step 3 (by norm_num)
  unfold blockSum
  rw [Fin.sum_univ_four]
  show accK S T u v I (3 + 1) = _
  rw [h4, h3, h2, h1, h0]
  simp only [zero_add]
  rfl

/-- The sum over the 4 × 4 grid of tiles is the sum over all pairs of rows. -/
private theorem tiles_eq (S T : Fin 4096 → Fin 3 → ℝ) (u v : Fin 4096 → ℝ) (G : Fin 4096 → Fin 4096 → ℝ)
    (hG : ∀ i j, chain5 (expo S T i j) = G i j) :
    ∑ I, ∑ J, partialK S T u v I J = ∑ i, ∑ j, G i j * (u i * v j) := by
  rw [sum_at4 (fun i => ∑ j, G i j * (u i * v j))]
  refine Finset.sum_congr rfl fun I _ => ?_
  unfold partialK
  refine Finset.sum_comm.trans ?_
  refine Finset.sum_congr rfl fun i _ => ?_
  rw [sum_at4 (fun j => G (at4 I i) j * (u (at4 I i) * v j))]
  refine Finset.sum_congr rfl fun J _ => ?_
  rw [Finset.sum_mul]
  refine Finset.sum_congr rfl fun j _ => ?_
  rw [hG]
  ring

/-- With a nonzero bandwidth the two losses are the same number. -/
theorem loss_eq (S T : Fin 4096 → Fin 3 → ℝ) (u v : Fin 4096 → ℝ) (h : bwRef (pool S T) ≠ 0) :
    lossKer S T u v = lossRef S T u v := by
  have e := sum_blocks (blockSum S T u v) (fun r => by have := r.isLt; omega)
  have key := tiles_eq S T u v
    (fun i j => gram5 (bwRef (pool S T)) (dist2 (pool S T) (lo i) (hi j))) (chain5_expo S T h)
  unfold lossKer lossRef
  rw [e]
  simp only [blockSum_eq]
  rw [key]
  ring

end Cert.Mmd

end
-- ==== Proof.PreDecode.lean ====
/-
  The precondition read back. It says three things of the two input arrays: every entry of the first is finite, every
  entry of the second is finite, and it is NOT the case that every row of both arrays equals the first array's row 0.
  So the entries are real numbers, and the pooled sample of 8192 points is not one repeated point.
-/
import proofs.«415581_j7954279432506_3_alg».proof.Pre_finite_inputs
import proofs.«415581_j7954279432506_3_alg».proof.Proof.Gen.Pre_finite_inputs
import proofs.«415581_j7954279432506_3_alg».proof.Proof.Spec
import Idealize.ShloMosaic.Lib.ReduceAll
import Idealize.ShloMosaic.Lib.ValueIdx
import Idealize.ShloMosaic.PureOps.Ideal

noncomputable section

namespace Cert.PreDecode

open Idealize.ShloMosaic Idealize.ShloMosaic.ValueIdx

/-- The rank-0 shape has one index. -/
instance : Subsingleton Cert.Pre_finite_inputs.S_.Idx := ⟨fun _ _ => funext fun d => d.elim0⟩

/-! ## A conjunction of ones is one -/

/-- A left fold by `and` from 1 over words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    have h1 : IntOp.andi 1#1 1#1 = 1#1 := by decide
    rw [List.foldl_cons, h a (List.mem_cons_self ..), h1]
    exact foldl_andi_one f l (fun n hn => h n (List.mem_cons_of_mem _ hn))

/-- The converse of reading a conjunction back: a reduction by `and` whose initial value is 1 and whose operand is 1 at
    every index is 1. -/
theorem reduce_andi_of_all {s t u : Shape} {axes : List (Fin s.rank)} (x : s.Idx → BitVec 1) (init : u.Idx → BitVec 1)
    (h : s.ReducesTo axes t) (hu : 0 < u.numel) (j : t.Idx) (hinit : ∀ i, init i = 1#1) (hx : ∀ i, x i = 1#1) :
    Host.reduce IntOp.andi x init h hu j = 1#1 := by
  rw [Host.reduce_eq_foldl, hinit]
  exact foldl_andi_one x _ (fun n _ => hx n)

/-- The negation of a conjunction of two ones is not one. -/
theorem not_andi_one (c d : BitVec 1) (hc : c = 1#1) (hd : d = 1#1) : ~~~(IntOp.andi c d) ≠ 1#1 := by
  subst hc hd; decide

/-! ## One element -/

/-- The pattern with exponent all ones and significand zero denotes +∞. -/
theorem inf_pattern : Ideal.ofBits .f32 0x7F800000#32 = (⊤ : EReal) := by
  simp [Ideal.ofBits, Ideal.ieee]

/-- `|x| < +∞` says `x` is neither infinity, so it is the coercion of a real. -/
theorem finite_of_abs_lt (x : EReal)
    (h : FloatOps.cmpf (F := Ideal) (φ := .f32) .olt (FloatOps.hostAbsf (F := Ideal) (φ := .f32) x)
      (FloatOps.ofBits (F := Ideal) .f32 0x7F800000#32) = 1#1) :
    x = ((x.toReal : ℝ) : EReal) := by
  have h' : Ideal.cmp .olt (max x (-x)) (Ideal.ofBits .f32 0x7F800000#32) = 1#1 := h
  rw [inf_pattern] at h'
  induction x using EReal.rec with
  | bot => simp [Ideal.cmp] at h'
  | top => simp [Ideal.cmp] at h'
  | coe r => simp

/-- Equal extended reals compare equal. -/
theorem oeq_of_eq (x y : EReal) (h : x = y) : FloatOps.cmpf (F := Ideal) (φ := .f32) .oeq x y = 1#1 := by
  subst h
  show Ideal.cmp .oeq x x = 1#1
  simp [Ideal.cmp]

open Cert.Pre_finite_inputs in
/-- Row 0 of an array, laid over all 4096 rows, reads at (p, k) the array's entry (0, k). -/
theorem row0_read (a : FVec Ideal S4096x3 .f32) (p : Fin 4096) (k : Fin 3) :
    broadcastInDim S4096x3 ![0, 1] Facts.bcast_S1x3_S4096x3_0_1
      ((extractStridedSlice S1x3 ![0, 0] · Facts.slices_S4096x3_S1x3_0_0) a) (ix2 p k) = a (ix2 (0 : Fin 4096) k) := by
  simp only [broadcastInDim, extractStridedSlice]
  congr 1
  funext d
  match d with
  | ⟨0, _⟩ => apply Fin.ext; simp
  | ⟨1, _⟩ => apply Fin.ext; simp

/-! ## The pooled sample's rows -/

theorem pool_zero (S T : Fin 4096 → Fin 3 → ℝ) (k : Fin 3) : Cert.Mmd.pool S T 0 k = S 0 k := by
  simp [Cert.Mmd.pool]

theorem pool_lo (S T : Fin 4096 → Fin 3 → ℝ) (p : Fin 4096) (k : Fin 3) :
    Cert.Mmd.pool S T ⟨p.val, by have := p.isLt; omega⟩ k = S p k := by
  have := p.isLt
  simp [Cert.Mmd.pool, this]

theorem pool_hi (S T : Fin 4096 → Fin 3 → ℝ) (p : Fin 4096) (k : Fin 3) :
    Cert.Mmd.pool S T ⟨4096 + p.val, by have := p.isLt; omega⟩ k = T p k := by
  simp [Cert.Mmd.pool]

/-! ## The predicate -/

/-- From the printed precondition at the extended reals: real-valued samples `S`, `T` that the two arrays are the
    coercions of, and a row of the pooled sample that differs from its row 0 in some coordinate. -/
theorem decode (a0 a1 : FVec Ideal Cert.Pre_finite_inputs.S4096x3 .f32)
    (h : Cert.Pre_finite_inputs.fn (F := Ideal) a0 a1 = fun _ => 1#1) :
    ∃ S T : Fin 4096 → Fin 3 → ℝ,
      (∀ (p : Fin 4096) (k : Fin 3), a0 (ix2 p k) = ((S p k : ℝ) : EReal)) ∧
      (∀ (p : Fin 4096) (k : Fin 3), a1 (ix2 p k) = ((T p k : ℝ) : EReal)) ∧
      ∃ i k, Cert.Mmd.pool S T i k ≠ Cert.Mmd.pool S T 0 k := by
  -- the predicate at its one index: (A ∧ B) ∧ ¬ (C ∧ D)
  have h0 := congrFun h ValueIdx.ix0
  dsimp only [Cert.Pre_finite_inputs.fn, Cert.Pre_finite_inputs.fn_part1] at h0
  dsimp only [Idealize.ShloMosaic.andi, Idealize.ShloMosaic.noti] at h0
  obtain ⟨hAB, hN⟩ := IntOp.andi_eq_one.1 h0
  obtain ⟨hA, hB⟩ := IntOp.andi_eq_one.1 hAB
  -- A, B: every entry of either array has |x| < +∞, so it is a real
  have hS : ∀ (p : Fin 4096) (k : Fin 3), a0 (ix2 p k) = (((a0 (ix2 p k)).toReal : ℝ) : EReal) := fun p k =>
    finite_of_abs_lt _ (Host.reduce_andi_all _ _ _ _ _ hA (ix2 p k))
  have hT : ∀ (p : Fin 4096) (k : Fin 3), a1 (ix2 p k) = (((a1 (ix2 p k)).toReal : ℝ) : EReal) := fun p k =>
    finite_of_abs_lt _ (Host.reduce_andi_all _ _ _ _ _ hB (ix2 p k))
  refine ⟨fun p k => (a0 (ix2 p k)).toReal, fun p k => (a1 (ix2 p k)).toReal, hS, hT, ?_⟩
  -- ¬ (C ∧ D): were every pooled row equal to row 0, both C and D would be 1
  by_contra hne
  have hall : ∀ i k, Cert.Mmd.pool (fun p k => (a0 (ix2 p k)).toReal) (fun p k => (a1 (ix2 p k)).toReal) i k
      = Cert.Mmd.pool (fun p k => (a0 (ix2 p k)).toReal) (fun p k => (a1 (ix2 p k)).toReal) 0 k :=
    fun i k => Classical.byContradiction fun hik => hne ⟨i, k, hik⟩
  refine not_andi_one _ _ ?_ ?_ hN
  · refine reduce_andi_of_all _ _ _ _ _ (fun _ => rfl) (fun i => ?_)
    obtain ⟨p, k, rfl⟩ : ∃ (p : Fin 4096) (k : Fin 3), i = ix2 p k := ⟨i 0, i 1, eq_ix2 i⟩
    rw [cmpf_apply, row0_read]
    apply oeq_of_eq
    rw [hS p k, hS 0 k]
    have e := hall ⟨p.val, by have := p.isLt; omega⟩ k
    rw [pool_lo, pool_zero] at e
    exact congrArg _ e
  · refine reduce_andi_of_all _ _ _ _ _ (fun _ => rfl) (fun i => ?_)
    obtain ⟨p, k, rfl⟩ : ∃ (p : Fin 4096) (k : Fin 3), i = ix2 p k := ⟨i 0, i 1, eq_ix2 i⟩
    rw [cmpf_apply, row0_read]
    apply oeq_of_eq
    rw [hT p k, hS 0 k]
    have e := hall ⟨4096 + p.val, by have := p.isLt; omega⟩ k
    rw [pool_hi, pool_zero] at e
    exact congrArg _ e

end Cert.PreDecode

end
-- ==== Proof.RefWeights.lean ====
/-
  The confidence weights are real numbers, whatever the inputs. A weight is `e_p / (Σ_q e_q + ε)` with
  `e_p = exp (-(d_p · d_p) / 128)` for some extended real `d_p`. A product `d · d` is never negative on the extended reals
  (`⊥ · ⊥ = ⊤`), so the exponent is `≤ 0` or `-∞`, and `e_p` is a real number in [0, 1]; the denominator is then a real
  number `≥ ε > 0`, and the quotient a real number.
-/
import proofs.«415581_j7954279432506_3_alg».proof.Proof.Gen.ReferenceIdeal.Read
import Idealize.ShloMosaic.Lib.ValueIdx
import Idealize.ShloMosaic.PureOps.Ideal
import Idealize.ShloMosaic.PureOps.Ideal.Laws

noncomputable section

namespace Cert.ReferenceIdeal.RefWeights

open Cert.ReferenceIdeal Cert.ReferenceIdeal.Read Idealize.ShloMosaic Idealize.ShloMosaic.ValueIdx
open BigOperators

/-- The pattern of `128.0` denotes the real `128`. -/
theorem ofBits_128 : Ideal.ofBits .f32 0x43000000#32 = ((128 : ℝ) : EReal) := by
  simp [Ideal.ofBits, Ideal.ieee, -EReal.coe_mul]; norm_num

/-- The pattern of `ε` (`8796093 · 2⁻⁴³`, about `10⁻⁶`) denotes a positive real. -/
theorem ofBits_eps : ∃ r : ℝ, 0 < r ∧ Ideal.ofBits .f32 0x358637BD#32 = ((r : ℝ) : EReal) := by
  refine ⟨8796093 * (2 : ℝ) ^ (-43 : ℤ), by positivity, ?_⟩
  simp [Ideal.ofBits, Ideal.ieee, -EReal.coe_mul]

/-- `exp (-(y · y) / 128)` is a real number in `[0, 1]` for every extended real `y`: at `y = ±∞` the square is `+∞`,
    the exponent `-∞` and the exponential `0`; at a real `y` the exponent is a real `≤ 0`. -/
theorem exp_negsq_real (y : EReal) :
    ∃ r : ℝ, 0 ≤ r ∧ r ≤ 1 ∧ Ideal.exp (Ideal.div (-(y * y)) ((128 : ℝ) : EReal)) = ((r : ℝ) : EReal) := by
  have h128 : (128 : ℝ) ≠ 0 := by norm_num
  have hpos : (0 : ℝ) < 1 / 128 := by norm_num
  rw [Ideal.div_coe h128]
  induction y using EReal.rec with
  | bot =>
    refine ⟨0, le_refl _, zero_le_one, ?_⟩
    rw [EReal.bot_mul_bot, EReal.neg_top, EReal.bot_mul_coe_of_pos hpos, Ideal.exp_bot, EReal.coe_zero]
  | coe x =>
    refine ⟨Real.exp (-(x * x) * (1 / 128)), Real.exp_nonneg _, ?_, ?_⟩
    · rw [Real.exp_le_one_iff]
      have := mul_self_nonneg x
      nlinarith
    · rw [← EReal.coe_mul, ← EReal.coe_neg, ← EReal.coe_mul, Ideal.exp_coe]
  | top =>
    refine ⟨0, le_refl _, zero_le_one, ?_⟩
    rw [EReal.top_mul_top, EReal.neg_top, EReal.bot_mul_coe_of_pos hpos, Ideal.exp_bot, EReal.coe_zero]

/-- A finite sum of coercions is the coercion of the sum. -/
theorem coe_sum {ι : Type} (s : Finset ι) (e : ι → ℝ) :
    ∑ q ∈ s, ((e q : ℝ) : EReal) = ((∑ q ∈ s, e q : ℝ) : EReal) := by
  classical
  induction s using Finset.induction_on with
  | empty => simp
  | insert a s ha ih => rw [Finset.sum_insert ha, Finset.sum_insert ha, ih, EReal.coe_add]

/-- The normalized weights `e_p / (0 + Σ_q e_q + ε)`, `e_q = exp (-(d_q · d_q) / 128)`, over any vector `d` of extended
    reals, are real numbers: the numerators are reals in `[0, 1]`, so the denominator is a real `≥ ε > 0`. -/
theorem weight_real {ι : Type} [Fintype ι] (d : ι → EReal) :
    ∃ u : ι → ℝ, ∀ p : ι,
      Ideal.div (Ideal.exp (Ideal.div (-(d p * d p)) (Ideal.ofBits .f32 0x43000000#32)))
        ((Ideal.ofBits .f32 0x00000000#32
            + ∑ q : ι, Ideal.exp (Ideal.div (-(d q * d q)) (Ideal.ofBits .f32 0x43000000#32)))
          + Ideal.ofBits .f32 0x358637BD#32) = ((u p : ℝ) : EReal) := by
  obtain ⟨ε, hε, hεeq⟩ := ofBits_eps
  choose e he0 _ hee using fun q => exp_negsq_real (d q)
  have hden : (0 : ℝ) < (∑ q : ι, e q) + ε :=
    add_pos_of_nonneg_of_pos (Finset.sum_nonneg fun q _ => he0 q) hε
  refine ⟨fun p => e p * (1 / ((∑ q : ι, e q) + ε)), fun p => ?_⟩
  rw [ofBits_128, Ideal.ofBits_zero_f32, hεeq, zero_add]
  simp only [hee]
  rw [coe_sum, ← EReal.coe_add, Ideal.div_coe hden.ne', ← EReal.coe_mul]

/-- The first sample's weights are (coercions of) real numbers. -/
theorem sw_real (x0 : (⟨S4096x3, .f32⟩ : BufTy).Contents (Elt Ideal)) :
    ∃ u : Fin 4096 → ℝ, ∀ p : Fin 4096, val_main_v24 (F := Ideal) x0 (ix1 p) = ((u p : ℝ) : EReal) := by
  obtain ⟨u, hu⟩ := weight_real (val_main_v15 (F := Ideal) x0)
  refine ⟨fun p => u (ix1 p), fun p => Eq.trans ?_ (hu (ix1 p))⟩
  rw [val_main_v24_apply, val_main_v23_apply, val_main_v22_apply, val_main_v21_apply]
  simp only [val_main_v20_apply, val_main_v19_apply, val_main_v18_apply, val_main_v17_apply, val_main_v16_apply,
    val_main_cst_3_apply, val_main_cst_4_apply, val_main_cst_5_apply, Ideal.hostDivf_def, Ideal.hostUnary_exp_def,
    Ideal.hostNegf_def, Ideal.negf_def, Ideal.mulf_def, Ideal.addf_def, Ideal.ofBits_def]

/-- The second sample's weights are (coercions of) real numbers. -/
theorem tw_real (x1 : (⟨S4096x3, .f32⟩ : BufTy).Contents (Elt Ideal)) :
    ∃ v : Fin 4096 → ℝ, ∀ p : Fin 4096, val_main_v49 (F := Ideal) x1 (ix1 p) = ((v p : ℝ) : EReal) := by
  obtain ⟨v, hv⟩ := weight_real (val_main_v40 (F := Ideal) x1)
  refine ⟨fun p => v (ix1 p), fun p => Eq.trans ?_ (hv (ix1 p))⟩
  rw [val_main_v49_apply, val_main_v48_apply, val_main_v47_apply, val_main_v46_apply]
  simp only [val_main_v45_apply, val_main_v44_apply, val_main_v43_apply, val_main_v42_apply, val_main_v41_apply,
    val_main_cst_10_apply, val_main_cst_11_apply, val_main_cst_12_apply, Ideal.hostDivf_def, Ideal.hostUnary_exp_def,
    Ideal.hostNegf_def, Ideal.negf_def, Ideal.mulf_def, Ideal.addf_def, Ideal.ofBits_def]

end Cert.ReferenceIdeal.RefWeights

end
-- ==== Proof.RefValue.lean ====
/-
  The reference's result as a real number. With real-valued samples `S`, `T` (the input arrays are their coercions), real
  weights `u`, `v` and a nonzero bandwidth, every stage of the reference is the coercion of a real quantity: the pooled
  sample, its squared norms, the squared distances `(|P i|² + |P j|²) - 2⟨P i, P j⟩`, their total, the bandwidth
  (a division by a nonzero real is a product with the reciprocal), the five Gaussians, the weighted sum. The result is
  `lossRef S T u v`.
-/
import proofs.«415581_j7954279432506_3_alg».proof.Proof.Gen.ReferenceIdeal.Read
import proofs.«415581_j7954279432506_3_alg».proof.Proof.Spec
import Idealize.ShloMosaic.Lib.ValueIdx
import Idealize.ShloMosaic.Lib.Pipeline.Value
import Idealize.ShloMosaic.PureOps.Ideal
import Idealize.ShloMosaic.PureOps.Ideal.Laws

noncomputable section

namespace Cert.ReferenceIdeal.RefValue

open Cert.ReferenceIdeal Cert.ReferenceIdeal.Read Idealize.ShloMosaic Idealize.ShloMosaic.ValueIdx
open BigOperators

/-! ## Sums of real numbers, and the constants the program spells -/

/-- A finite sum of coercions of reals is the coercion of the sum. -/
theorem coe_sum {ι : Type} (s : Finset ι) (f : ι → ℝ) :
    (∑ i ∈ s, ((f i : ℝ) : EReal)) = ((∑ i ∈ s, f i : ℝ) : EReal) := by
  classical
  refine Finset.induction_on s ?_ ?_
  · rw [Finset.sum_empty, Finset.sum_empty, EReal.coe_zero]
  · intro a s ha ih
    rw [Finset.sum_insert ha, Finset.sum_insert ha, ih, EReal.coe_add]

/-- The pattern of `1.0` denotes the real `1`. -/
theorem ofBits_one : Ideal.ofBits .f32 0x3F800000#32 = ((1 : ℝ) : EReal) := by
  simp [Ideal.ofBits, Ideal.ieee, -EReal.coe_mul]; norm_num
/-- The pattern of `2.0` denotes the real `2`. -/
theorem ofBits_two : Ideal.ofBits .f32 0x40000000#32 = ((2 : ℝ) : EReal) := by
  simp [Ideal.ofBits, Ideal.ieee, -EReal.coe_mul]; norm_num
/-- The pattern of `4.0` denotes the real `4`. -/
theorem ofBits_four : Ideal.ofBits .f32 0x40800000#32 = ((4 : ℝ) : EReal) := by
  simp [Ideal.ofBits, Ideal.ieee, -EReal.coe_mul]; norm_num
/-- The pattern of `8.0` denotes the real `8`. -/
theorem ofBits_eight : Ideal.ofBits .f32 0x41000000#32 = ((8 : ℝ) : EReal) := by
  simp [Ideal.ofBits, Ideal.ieee, -EReal.coe_mul]; norm_num
/-- The pattern of `16.0` denotes the real `16`. -/
theorem ofBits_sixteen : Ideal.ofBits .f32 0x41800000#32 = ((16 : ℝ) : EReal) := by
  simp [Ideal.ofBits, Ideal.ieee, -EReal.coe_mul]; norm_num
/-- The pattern `0x4C7FF800` denotes `8192² - 8192 = 67100672`, the number of ordered pairs of distinct points. -/
theorem ofBits_pairs : Ideal.ofBits .f32 0x4C7FF800#32 = ((67100672 : ℝ) : EReal) := by
  simp [Ideal.ofBits, Ideal.ieee, -EReal.coe_mul]; norm_num
/-- The pattern of `-2.0` denotes the real `-2`. -/
theorem ofBits_neg_two : Ideal.ofBits .f32 0xC0000000#32 = ((-2 : ℝ) : EReal) := by
  simp [Ideal.ofBits, Ideal.ieee, -EReal.coe_mul]; norm_num

/-- One Gaussian: the exponential of the negated squared distance over a nonzero real bandwidth is the real Gaussian. -/
theorem gauss_term (L bw c : ℝ) (h : bw * c ≠ 0) :
    Ideal.exp (Ideal.div (-((L : ℝ) : EReal)) (((bw : ℝ) : EReal) * ((c : ℝ) : EReal)))
      = ((Real.exp (-L / (bw * c)) : ℝ) : EReal) := by
  rw [← EReal.coe_mul, ← EReal.coe_neg, Ideal.div_coe h, ← EReal.coe_mul, Ideal.exp_coe, mul_one_div]

section Stages
variable (x0 x1 : (⟨S4096x3, .f32⟩ : BufTy).Contents (Elt Ideal))

/-! ## The pooled sample: the concatenation read at an index -/

/-- A row below 4096 of the concatenation is that row of the first operand. -/
theorem v50_lo (i : Fin 8192) (k : Fin 3) (h : i.val < 4096) :
    val_main_v50 (F := Ideal) x0 x1 (ix2 i k) = x0 (ix2 (⟨i.val, h⟩ : Fin 4096) k) := by
  unfold val_main_v50
  exact concatenate_pair_apply_left 0 x0 x1 _ (ix2 i k) rfl (ix2 (⟨i.val, h⟩ : Fin 4096) k)
    (fun b => by match b with | ⟨0, _⟩ => rfl | ⟨1, _⟩ => rfl)

/-- A row from 4096 on of the concatenation is the row 4096 less of the second operand. -/
theorem v50_hi (i : Fin 8192) (k : Fin 3) (h : ¬ i.val < 4096) :
    val_main_v50 (F := Ideal) x0 x1 (ix2 i k)
      = x1 (ix2 (⟨i.val - 4096, by have := i.isLt; omega⟩ : Fin 4096) k) := by
  unfold val_main_v50
  exact concatenate_pair_apply_right 0 x0 x1 _ (ix2 i k) rfl rfl
    (ix2 (⟨i.val - 4096, by have := i.isLt; omega⟩ : Fin 4096) k)
    (fun b hb => by match b with | ⟨0, _⟩ => exact absurd rfl hb | ⟨1, _⟩ => rfl)
    (by show (i.val - 4096) + 4096 = i.val; omega)

/-! ## Index equations: the layout operations of the squared-distance stages at explicit coordinates -/

/-- The row broadcast of the squared norms at `(i, j)` reads the squared norm of row `i`. -/
theorem v55_eq (i j : Fin 8192) :
    val_main_v55 (F := Ideal) x0 x1 (ix2 i j) = val_main_v52 (F := Ideal) x0 x1 (ix1 i) := by
  rw [val_main_v55_apply, val_main_v53_apply]
  exact congrArg _ (funext fun a => Fin.ext (by match a with | ⟨0, _⟩ => rfl))

/-- The column broadcast of the squared norms at `(i, j)` reads the squared norm of row `j`. -/
theorem v56_eq (i j : Fin 8192) :
    val_main_v56 (F := Ideal) x0 x1 (ix2 i j) = val_main_v52 (F := Ideal) x0 x1 (ix1 j) := by
  rw [val_main_v56_apply, val_main_v54_apply]
  exact congrArg _ (funext fun a => Fin.ext (by match a with | ⟨0, _⟩ => rfl))

/-- The slice `[0:4096, 4096:8192]` at `(i, j)` reads the squared distances at `(i, 4096 + j)`. -/
theorem v66_eq (i j : Fin 4096) :
    val_main_v66 (F := Ideal) x0 x1 (ix2 i j)
      = val_main_v62 (F := Ideal) x0 x1 (ix2 (Cert.Mmd.lo i) (Cert.Mmd.hi j)) := by
  rw [val_main_v66_apply]
  exact congrArg _ (funext fun a => Fin.ext (by match a with | ⟨0, _⟩ => rfl | ⟨1, _⟩ => rfl))

/-- The row broadcast of the first weights at `(i, j)` reads weight `i`. -/
theorem v100_eq (i j : Fin 4096) :
    val_main_v100 (F := Ideal) x0 (ix2 i j) = val_main_v24 (F := Ideal) x0 (ix1 i) := by
  rw [val_main_v100_apply, val_main_v98_apply]
  exact congrArg _ (funext fun a => Fin.ext (by match a with | ⟨0, _⟩ => rfl))

/-- The column broadcast of the second weights at `(i, j)` reads weight `j`. -/
theorem v101_eq (i j : Fin 4096) :
    val_main_v101 (F := Ideal) x1 (ix2 i j) = val_main_v49 (F := Ideal) x1 (ix1 j) := by
  rw [val_main_v101_apply, val_main_v99_apply]
  exact congrArg _ (funext fun a => Fin.ext (by match a with | ⟨0, _⟩ => rfl))

/-! ## The stages as real numbers -/

variable (S T : Fin 4096 → Fin 3 → ℝ)
  (hS : ∀ (p : Fin 4096) (k : Fin 3), x0 (ix2 p k) = ((S p k : ℝ) : EReal))
  (hT : ∀ (p : Fin 4096) (k : Fin 3), x1 (ix2 p k) = ((T p k : ℝ) : EReal))
include hS hT

/-- The concatenation holds the pooled sample. -/
theorem v50_pool (i : Fin 8192) (k : Fin 3) :
    val_main_v50 (F := Ideal) x0 x1 (ix2 i k) = ((Cert.Mmd.pool S T i k : ℝ) : EReal) := by
  unfold Cert.Mmd.pool
  split
  · next h => rw [v50_lo x0 x1 i k h, hS]
  · next h => rw [v50_hi x0 x1 i k h, hT]

/-- The row sums of the squares hold the squared norms. -/
theorem v52_sqn (i : Fin 8192) :
    val_main_v52 (F := Ideal) x0 x1 (ix1 i) = ((Cert.Mmd.sqn (Cert.Mmd.pool S T) i : ℝ) : EReal) := by
  rw [val_main_v52_apply]
  have hidx : ∀ k : Fin 3, idx_main_v52 (ix1 i) k = ix2 i k := fun k =>
    funext fun a => Fin.ext (by match a with | ⟨0, _⟩ => rfl | ⟨1, _⟩ => rfl)
  simp only [hidx, val_main_v51_apply, val_main_cst_13_apply, Ideal.mulf_def, Ideal.ofBits_def, Ideal.ofBits_zero_f32,
    v50_pool x0 x1 S T hS hT, ← EReal.coe_mul, coe_sum, zero_add]
  rfl

/-- The product with the transpose holds the inner products. -/
theorem v59_inner (i j : Fin 8192) :
    val_main_v59 (F := Ideal) x0 x1 (ix2 i j)
      = ((∑ k, Cert.Mmd.pool S T i k * Cert.Mmd.pool S T j k : ℝ) : EReal) := by
  rw [val_main_v59_apply]
  have hl : ∀ k : Fin 3, lidx_main_v59 (ix2 i j) k = ix2 i k := fun k =>
    funext fun a => Fin.ext (by match a with | ⟨0, _⟩ => rfl | ⟨1, _⟩ => rfl)
  have hr : ∀ k : Fin 3, idx_main_v58 (ridx_main_v59 (ix2 i j) k) = ix2 j k := fun k =>
    funext fun a => Fin.ext (by match a with | ⟨0, _⟩ => rfl | ⟨1, _⟩ => rfl)
  simp only [val_main_v58_apply, hl, hr, v50_pool x0 x1 S T hS hT, ← EReal.coe_mul, coe_sum]

/-- The squared distances: `(|P i|² + |P j|²) - 2 ⟨P i, P j⟩`. -/
theorem v62_dist2 (i j : Fin 8192) :
    val_main_v62 (F := Ideal) x0 x1 (ix2 i j) = ((Cert.Mmd.dist2 (Cert.Mmd.pool S T) i j : ℝ) : EReal) := by
  rw [val_main_v62_apply, val_main_v57_apply, val_main_v61_apply, val_main_v60_apply, val_main_cst_14_apply,
    v55_eq, v56_eq, v52_sqn x0 x1 S T hS hT i, v52_sqn x0 x1 S T hS hT j, v59_inner x0 x1 S T hS hT i j]
  simp only [Ideal.addf_def, Ideal.subf_def, Ideal.mulf_def, Ideal.ofBits_def, ofBits_two, ← EReal.coe_mul,
    ← EReal.coe_add, ← EReal.coe_sub]
  rfl

/-- The total of the squared distances. -/
theorem v63_total (i : S_.Idx) :
    val_main_v63 (F := Ideal) x0 x1 i
      = ((∑ a, ∑ b, Cert.Mmd.dist2 (Cert.Mmd.pool S T) a b : ℝ) : EReal) := by
  rw [val_main_v63_apply, val_main_cst_15_apply, sum_idx2]
  simp only [v62_dist2 x0 x1 S T hS hT, coe_sum, Ideal.ofBits_def, Ideal.ofBits_zero_f32, zero_add]

/-- The bandwidth: the total over the number of ordered pairs, over 4. -/
theorem v65_bw (i : S_.Idx) :
    val_main_v65 (F := Ideal) x0 x1 i = ((Cert.Mmd.bwRef (Cert.Mmd.pool S T) : ℝ) : EReal) := by
  rw [val_main_v65_apply, val_main_v64_apply, val_main_cst_17_apply, val_main_cst_16_apply,
    v63_total x0 x1 S T hS hT]
  simp only [Ideal.hostDivf_def, Ideal.ofBits_def, ofBits_four, ofBits_pairs]
  rw [Ideal.div_coe (y := 67100672) (by norm_num), ← EReal.coe_mul, Ideal.div_coe (y := 4) (by norm_num), ← EReal.coe_mul]
  refine congrArg _ ?_
  unfold Cert.Mmd.bwRef
  ring

/-- The cross block of the squared distances: a row of `S` against a row of `T`. -/
theorem v66_dist2 (i j : Fin 4096) :
    val_main_v66 (F := Ideal) x0 x1 (ix2 i j)
      = ((Cert.Mmd.dist2 (Cert.Mmd.pool S T) (Cert.Mmd.lo i) (Cert.Mmd.hi j) : ℝ) : EReal) := by
  rw [v66_eq, v62_dist2 x0 x1 S T hS hT]
end Stages

section Gaussians
variable (x0 x1 : (⟨S4096x3, .f32⟩ : BufTy).Contents (Elt Ideal)) (S T : Fin 4096 → Fin 3 → ℝ)
  (hS : ∀ (p : Fin 4096) (k : Fin 3), x0 (ix2 p k) = ((S p k : ℝ) : EReal))
  (hT : ∀ (p : Fin 4096) (k : Fin 3), x1 (ix2 p k) = ((T p k : ℝ) : EReal))
  (hbw : Cert.Mmd.bwRef (Cert.Mmd.pool S T) ≠ 0)
include hS hT hbw

/-! ## The five Gaussians -/

/-- The Gaussian of bandwidth `bw · 1`. -/
theorem v72_gauss (i j : Fin 4096) :
    val_main_v72 (F := Ideal) x0 x1 (ix2 i j)
      = ((Real.exp (-(Cert.Mmd.dist2 (Cert.Mmd.pool S T) (Cert.Mmd.lo i) (Cert.Mmd.hi j))
          / (Cert.Mmd.bwRef (Cert.Mmd.pool S T) * 1)) : ℝ) : EReal) := by
  rw [val_main_v72_apply, val_main_v71_apply, val_main_v68_apply, val_main_v70_apply, val_main_v69_apply,
    val_main_cst_19_apply, v66_dist2 x0 x1 S T hS hT, v65_bw x0 x1 S T hS hT]
  simp only [Ideal.hostUnary_exp_def, Ideal.hostDivf_def, Ideal.hostNegf_def, Ideal.negf_def, Ideal.mulf_def,
    Ideal.ofBits_def, ofBits_one]
  exact gauss_term _ _ _ (mul_ne_zero hbw one_ne_zero)

/-- The Gaussian of bandwidth `bw · 2`. -/
theorem v78_gauss (i j : Fin 4096) :
    val_main_v78 (F := Ideal) x0 x1 (ix2 i j)
      = ((Real.exp (-(Cert.Mmd.dist2 (Cert.Mmd.pool S T) (Cert.Mmd.lo i) (Cert.Mmd.hi j))
          / (Cert.Mmd.bwRef (Cert.Mmd.pool S T) * 2)) : ℝ) : EReal) := by
  rw [val_main_v78_apply, val_main_v77_apply, val_main_v74_apply, val_main_v76_apply, val_main_v75_apply,
    val_main_cst_20_apply, v66_dist2 x0 x1 S T hS hT, v65_bw x0 x1 S T hS hT]
  simp only [Ideal.hostUnary_exp_def, Ideal.hostDivf_def, Ideal.hostNegf_def, Ideal.negf_def, Ideal.mulf_def,
    Ideal.ofBits_def, ofBits_two]
  exact gauss_term _ _ _ (mul_ne_zero hbw two_ne_zero)

/-- The Gaussian of bandwidth `bw · 4`. -/
theorem v84_gauss (i j : Fin 4096) :
    val_main_v84 (F := Ideal) x0 x1 (ix2 i j)
      = ((Real.exp (-(Cert.Mmd.dist2 (Cert.Mmd.pool S T) (Cert.Mmd.lo i) (Cert.Mmd.hi j))
          / (Cert.Mmd.bwRef (Cert.Mmd.pool S T) * 4)) : ℝ) : EReal) := by
  rw [val_main_v84_apply, val_main_v83_apply, val_main_v80_apply, val_main_v82_apply, val_main_v81_apply,
    val_main_cst_21_apply, v66_dist2 x0 x1 S T hS hT, v65_bw x0 x1 S T hS hT]
  simp only [Ideal.hostUnary_exp_def, Ideal.hostDivf_def, Ideal.hostNegf_def, Ideal.negf_def, Ideal.mulf_def,
    Ideal.ofBits_def, ofBits_four]
  exact gauss_term _ _ _ (mul_ne_zero hbw four_ne_zero)

/-- The Gaussian of bandwidth `bw · 8`. -/
theorem v90_gauss (i j : Fin 4096) :
    val_main_v90 (F := Ideal) x0 x1 (ix2 i j)
      = ((Real.exp (-(Cert.Mmd.dist2 (Cert.Mmd.pool S T) (Cert.Mmd.lo i) (Cert.Mmd.hi j))
          / (Cert.Mmd.bwRef (Cert.Mmd.pool S T) * 8)) : ℝ) : EReal) := by
  rw [val_main_v90_apply, val_main_v89_apply, val_main_v86_apply, val_main_v88_apply, val_main_v87_apply,
    val_main_cst_22_apply, v66_dist2 x0 x1 S T hS hT, v65_bw x0 x1 S T hS hT]
  simp only [Ideal.hostUnary_exp_def, Ideal.hostDivf_def, Ideal.hostNegf_def, Ideal.negf_def, Ideal.mulf_def,
    Ideal.ofBits_def, ofBits_eight]
  exact gauss_term _ _ _ (mul_ne_zero hbw (by norm_num))

/-- The Gaussian of bandwidth `bw · 16`. -/
theorem v96_gauss (i j : Fin 4096) :
    val_main_v96 (F := Ideal) x0 x1 (ix2 i j)
      = ((Real.exp (-(Cert.Mmd.dist2 (Cert.Mmd.pool S T) (Cert.Mmd.lo i) (Cert.Mmd.hi j))
          / (Cert.Mmd.bwRef (Cert.Mmd.pool S T) * 16)) : ℝ) : EReal) := by
  rw [val_main_v96_apply, val_main_v95_apply, val_main_v92_apply, val_main_v94_apply, val_main_v93_apply,
    val_main_cst_23_apply, v66_dist2 x0 x1 S T hS hT, v65_bw x0 x1 S T hS hT]
  simp only [Ideal.hostUnary_exp_def, Ideal.hostDivf_def, Ideal.hostNegf_def, Ideal.negf_def, Ideal.mulf_def,
    Ideal.ofBits_def, ofBits_sixteen]
  exact gauss_term _ _ _ (mul_ne_zero hbw (by norm_num))

/-- The sum of the five Gaussians, from 0, in the program's order. -/
theorem v97_gram (i j : Fin 4096) :
    val_main_v97 (F := Ideal) x0 x1 (ix2 i j)
      = ((Cert.Mmd.gram5 (Cert.Mmd.bwRef (Cert.Mmd.pool S T))
          (Cert.Mmd.dist2 (Cert.Mmd.pool S T) (Cert.Mmd.lo i) (Cert.Mmd.hi j)) : ℝ) : EReal) := by
  rw [val_main_v97_apply, val_main_v91_apply, val_main_v85_apply, val_main_v79_apply, val_main_v73_apply,
    val_main_v67_apply, val_main_cst_18_apply, v72_gauss x0 x1 S T hS hT hbw, v78_gauss x0 x1 S T hS hT hbw,
    v84_gauss x0 x1 S T hS hT hbw, v90_gauss x0 x1 S T hS hT hbw, v96_gauss x0 x1 S T hS hT hbw]
  simp only [Ideal.addf_def, Ideal.ofBits_def, Ideal.ofBits_zero_f32]
  rw [← EReal.coe_zero]
  simp only [← EReal.coe_add]
  rfl

/-! ## The weighted sum -/

variable (u v : Fin 4096 → ℝ)
  (hu : ∀ p : Fin 4096, val_main_v24 (F := Ideal) x0 (ix1 p) = ((u p : ℝ) : EReal))
  (hv : ∀ p : Fin 4096, val_main_v49 (F := Ideal) x1 (ix1 p) = ((v p : ℝ) : EReal))
include hu hv

/-- The weighted Gaussians at `(i, j)`. -/
theorem v103_term (i j : Fin 4096) :
    val_main_v103 (F := Ideal) x0 x1 (ix2 i j)
      = ((Cert.Mmd.gram5 (Cert.Mmd.bwRef (Cert.Mmd.pool S T))
          (Cert.Mmd.dist2 (Cert.Mmd.pool S T) (Cert.Mmd.lo i) (Cert.Mmd.hi j)) * (u i * v j) : ℝ) : EReal) := by
  rw [val_main_v103_apply, val_main_v102_apply, v100_eq, v101_eq, hu, hv, v97_gram x0 x1 S T hS hT hbw]
  simp only [Ideal.mulf_def, ← EReal.coe_mul]

/-- The reference's result entry. -/
theorem v105_loss (i : S_.Idx) :
    val_main_v105 (F := Ideal) x0 x1 i = ((Cert.Mmd.lossRef S T u v : ℝ) : EReal) := by
  rw [val_main_v105_apply, val_main_cst_25_apply, val_main_v104_apply, val_main_cst_24_apply, sum_idx2]
  simp only [v103_term x0 x1 S T hS hT hbw u v hu hv, coe_sum, Ideal.ofBits_def, Ideal.ofBits_zero_f32, ofBits_neg_two,
    Ideal.mulf_def]
  rw [← EReal.coe_zero, ← EReal.coe_add, ← EReal.coe_mul]
  rfl
end Gaussians

/-- The reference's result array (one entry) holds `lossRef S T u v`. -/
theorem ref_value (x0 x1 : (⟨S4096x3, .f32⟩ : BufTy).Contents (Elt Ideal))
    (S T : Fin 4096 → Fin 3 → ℝ) (u v : Fin 4096 → ℝ)
    (hS : ∀ (p : Fin 4096) (k : Fin 3), x0 (ix2 p k) = ((S p k : ℝ) : EReal))
    (hT : ∀ (p : Fin 4096) (k : Fin 3), x1 (ix2 p k) = ((T p k : ℝ) : EReal))
    (hu : ∀ p : Fin 4096, val_main_v24 (F := Ideal) x0 (ix1 p) = ((u p : ℝ) : EReal))
    (hv : ∀ p : Fin 4096, val_main_v49 (F := Ideal) x1 (ix1 p) = ((v p : ℝ) : EReal))
    (hbw : Cert.Mmd.bwRef (Cert.Mmd.pool S T) ≠ 0) :
    val_main_v105 (F := Ideal) x0 x1 = fun _ => ((Cert.Mmd.lossRef S T u v : ℝ) : EReal) :=
  funext fun i => v105_loss x0 x1 S T hS hT hbw u v hu hv i

end Cert.ReferenceIdeal.RefValue

end
-- ==== Proof.KernelIface.lean ====
/-
  What the region finds in its four operand arrays, as one bundle of facts over real-valued samples `S`, `T`, weights
  `u`, `v`: the first sample itself; the second sample transposed and scaled by `-2c`; the packed columns
  (`c|S i|²`, `u i`); the packed rows (`c|T j|²`, `v j`), with `c = -1 / (16 bw)`.
-/
import proofs.«415581_j7954279432506_3_alg».proof.Proof.Gen.KernelIdeal.Frame
import proofs.«415581_j7954279432506_3_alg».proof.Proof.Spec
import Idealize.ShloMosaic.Lib.ValueIdx

noncomputable section

namespace Cert.KernelIdeal.Iface

open Cert.KernelIdeal Cert.KernelIdeal.Gen Idealize.ShloMosaic Idealize.ShloMosaic.TcCoe Idealize.ShloMosaic.ValueIdx Idealize.SL.Sem

/-- The arrays the region is launched on, read at an index. -/
structure HostVals (m : (ℓ : Loc nD τ sig) → Buf (Elt Ideal) ℓ) (c : Dev nD)
    (S T : Fin 4096 → Fin 3 → ℝ) (u v : Fin 4096 → ℝ) : Prop where
  src : ∀ (i : Fin 4096) (k : Fin 3), (V m c main_arg0 : S4096x3.Idx → EReal) (ix2 i k) = ((S i k : ℝ) : EReal)
  tgtT : ∀ (k : Fin 3) (j : Fin 4096),
    (V m c main_v78 : S3x4096.Idx → EReal) (ix2 k j) = ((T j k * (-2 * Cert.Mmd.cK (Cert.Mmd.pool S T)) : ℝ) : EReal)
  col0 : ∀ i : Fin 4096,
    (V m c main_v81 : S4096x2.Idx → EReal) (ix2 i (0 : Fin 2)) = ((Cert.Mmd.cK (Cert.Mmd.pool S T) * Cert.Mmd.sqn S i : ℝ) : EReal)
  col1 : ∀ i : Fin 4096, (V m c main_v81 : S4096x2.Idx → EReal) (ix2 i (1 : Fin 2)) = ((u i : ℝ) : EReal)
  row0 : ∀ j : Fin 4096,
    (V m c main_v82 : S2x4096.Idx → EReal) (ix2 (0 : Fin 2) j) = ((Cert.Mmd.cK (Cert.Mmd.pool S T) * Cert.Mmd.sqn T j : ℝ) : EReal)
  row1 : ∀ j : Fin 4096, (V m c main_v82 : S2x4096.Idx → EReal) (ix2 (1 : Fin 2) j) = ((v j : ℝ) : EReal)

end Cert.KernelIdeal.Iface

end
-- ==== Proof.KernelHost.lean ====
/-
  The host operations before the region, read at an index. From real-valued samples and real weights, with a nonzero
  bandwidth: the moments `Σ|P i|²` and `Σ_d (Σ_i P i d)²` of the pooled sample give the bandwidth `bwKer`, the scalar
  `c = -1 / (16 bw)` is a real number (a division by a nonzero real), and the four operand arrays of the region hold
  the first sample, `T j k · (-2c)` transposed, the columns (`c|S i|²`, `u i`) and the rows (`c|T j|²`, `v j`).
  The weights are computed by the same operations as in the other program, so they are carried as one opaque function
  of the argument array and never opened here.
-/
import proofs.«415581_j7954279432506_3_alg».proof.Proof.KernelIface
import proofs.«415581_j7954279432506_3_alg».proof.Proof.Gen.ReferenceIdeal.Read
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.Host

open Cert.KernelIdeal Cert.KernelIdeal.Gen Idealize.ShloMosaic Idealize.ShloMosaic.TcCoe Idealize.ShloMosaic.ValueIdx Idealize.SL.Sem
open BigOperators

/-! ## The operations before the region, as functions of the two arguments -/

section Stages
variable {F : FTy → Type} [FloatOps F]

/-- A 4096 × 3 argument array. -/
abbrev Arg (F : FTy → Type) [FloatOps F] : Type := (⟨S4096x3, .f32⟩ : BufTy).Contents (Elt F)

/-- The sum of all squared norms of the pooled sample. -/
def kv53 (x0 x1 : Arg F) : (⟨S_, .f32⟩ : BufTy).Contents (Elt F) :=
  Host.reduceAdd (Cert.ReferenceIdeal.Read.val_main_v52 (F := F) x0 x1) (constant S_ .f32 0x00000000#32) reducesTo_S8192_S_d0 h_S_
/-- The column sums of the pooled sample. -/
def kv54 (x0 x1 : Arg F) : (⟨S3, .f32⟩ : BufTy).Contents (Elt F) :=
  Host.reduceAdd (Cert.ReferenceIdeal.Read.val_main_v50 (F := F) x0 x1) (constant S_ .f32 0x00000000#32) reducesTo_S8192x3_S3_d0 h_S_
def kv55 (x0 x1 : Arg F) : (⟨S3, .f32⟩ : BufTy).Contents (Elt F) := mulf (kv54 x0 x1) (kv54 x0 x1)
def kv56 (x0 x1 : Arg F) : (⟨S_, .f32⟩ : BufTy).Contents (Elt F) :=
  Host.reduceAdd (kv55 x0 x1) (constant S_ .f32 0x00000000#32) reducesTo_S3_S_d0 h_S_
def kv57 (x0 x1 : Arg F) : (⟨S_, .f32⟩ : BufTy).Contents (Elt F) := mulf (constant S_ .f32 0x46800000#32) (kv53 x0 x1)
def kv58 (x0 x1 : Arg F) : (⟨S_, .f32⟩ : BufTy).Contents (Elt F) := mulf (constant S_ .f32 0x40000000#32) (kv56 x0 x1)
def kv59 (x0 x1 : Arg F) : (⟨S_, .f32⟩ : BufTy).Contents (Elt F) := subf (kv57 x0 x1) (kv58 x0 x1)
def kv60 (x0 x1 : Arg F) : (⟨S_, .f32⟩ : BufTy).Contents (Elt F) := Host.divf (kv59 x0 x1) (constant S_ .f32 0x4C7FF800#32)
def kv61 (x0 x1 : Arg F) : (⟨S_, .f32⟩ : BufTy).Contents (Elt F) := Host.divf (kv60 x0 x1) (constant S_ .f32 0x40800000#32)
def kv62 (x0 x1 : Arg F) : (⟨S_, .f32⟩ : BufTy).Contents (Elt F) := mulf (kv61 x0 x1) (constant S_ .f32 0x41800000#32)
/-- The scalar `c`. -/
def kv63 (x0 x1 : Arg F) : (⟨S_, .f32⟩ : BufTy).Contents (Elt F) := Host.divf (constant S_ .f32 0xBF800000#32) (kv62 x0 x1)
/-- The squared norms of one argument's rows, as a column. -/
def kv64 (x : Arg F) : Arg F := mulf x x
def kv65 (x : Arg F) : (⟨S4096, .f32⟩ : BufTy).Contents (Elt F) :=
  Host.reduceAdd (kv64 x) (constant S_ .f32 0x00000000#32) reducesTo_S4096x3_S4096_d1 h_S_
def kv66 (x : Arg F) : (⟨S4096x1, .f32⟩ : BufTy).Contents (Elt F) :=
  broadcastInDim S4096x1 ![0] bcast_S4096_S4096x1_0 (kv65 x)
def kv70 (x : Arg F) : (⟨S1x4096, .f32⟩ : BufTy).Contents (Elt F) :=
  transpose S1x4096 [1, 0] (kv66 x) transposes_S4096x1_S1x4096_1_0
def kv72 (x0 x1 : Arg F) : (⟨S4096x1, .f32⟩ : BufTy).Contents (Elt F) :=
  mulf (broadcastInDim S4096x1 ![] bcast_S_S4096x1 (kv63 x0 x1)) (kv66 x0)
def kv74 (x0 x1 : Arg F) : (⟨S1x4096, .f32⟩ : BufTy).Contents (Elt F) :=
  mulf (broadcastInDim S1x4096 ![] bcast_S_S1x4096 (kv63 x0 x1)) (kv70 x1)
def kv75 (x : Arg F) : (⟨S3x4096, .f32⟩ : BufTy).Contents (Elt F) :=
  transpose S3x4096 [1, 0] x transposes_S4096x3_S3x4096_1_0
def kv76 (x0 x1 : Arg F) : (⟨S_, .f32⟩ : BufTy).Contents (Elt F) := mulf (constant S_ .f32 0xC0000000#32) (kv63 x0 x1)
def kv78 (x0 x1 : Arg F) : (⟨S3x4096, .f32⟩ : BufTy).Contents (Elt F) :=
  mulf (kv75 x1) (broadcastInDim S3x4096 ![] bcast_S_S3x4096 (kv76 x0 x1))
def kv79 (x0 : Arg F) : (⟨S4096x1, .f32⟩ : BufTy).Contents (Elt F) :=
  broadcastInDim S4096x1 ![0] bcast_S4096_S4096x1_0 (Cert.ReferenceIdeal.Read.val_main_v24 (F := F) x0)
def kv80 (x1 : Arg F) : (⟨S1x4096, .f32⟩ : BufTy).Contents (Elt F) :=
  broadcastInDim S1x4096 ![1] bcast_S4096_S1x4096_1 (Cert.ReferenceIdeal.Read.val_main_v49 (F := F) x1)
def kv81 (x0 x1 : Arg F) : (⟨S4096x2, .f32⟩ : BufTy).Contents (Elt F) :=
  concatenate S4096x2 1 [⟨S4096x1, kv72 x0 x1⟩, ⟨S4096x1, kv79 x0⟩] concatenates_S4096x1_S4096x1_S4096x2_d1
def kv82 (x0 x1 : Arg F) : (⟨S2x4096, .f32⟩ : BufTy).Contents (Elt F) :=
  concatenate S2x4096 0 [⟨S1x4096, kv74 x0 x1⟩, ⟨S1x4096, kv80 x1⟩] concatenates_S1x4096_S1x4096_S2x4096_d0

variable (m : (ℓ : Loc nD τ sig) → Buf (Elt F) ℓ) (c : Dev nD)

theorem V_v78 : V m c main_v78 = kv78 (m ((c.tc : Thread nD τ).loc main_arg0)) (m ((c.tc : Thread nD τ).loc main_arg1)) := by
  show StableHlo.after hostOps0 (fun b => m (c, b)) (Proc.devRef .tc main_v78) = _
  after_results_simp
  rfl

theorem V_v81 : V m c main_v81 = kv81 (m ((c.tc : Thread nD τ).loc main_arg0)) (m ((c.tc : Thread nD τ).loc main_arg1)) := by
  show StableHlo.after hostOps0 (fun b => m (c, b)) (Proc.devRef .tc main_v81) = _
  after_results_simp
  rfl

theorem V_v82 : V m c main_v82 = kv82 (m ((c.tc : Thread nD τ).loc main_arg0)) (m ((c.tc : Thread nD τ).loc main_arg1)) := by
  show StableHlo.after hostOps0 (fun b => m (c, b)) (Proc.devRef .tc main_v82) = _
  after_results_simp
  rfl

end Stages

/-! ## Their values over real-valued samples -/

section Values

/-- A real sum, coerced, is the sum of the coercions. -/
theorem coe_sum {ι : Type} (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

theorem c_zero : Ideal.ofBits .f32 0x00000000#32 = ((0 : ℝ) : EReal) := by
  simp [Ideal.ofBits, Ideal.ieee]
theorem c_16384 : Ideal.ofBits .f32 0x46800000#32 = ((16384 : ℝ) : EReal) := by
  simp [Ideal.ofBits, Ideal.ieee, -EReal.coe_mul]; norm_num
theorem c_two : Ideal.ofBits .f32 0x40000000#32 = ((2 : ℝ) : EReal) := by
  simp [Ideal.ofBits, Ideal.ieee, -EReal.coe_mul]; norm_num
theorem c_pairs : Ideal.ofBits .f32 0x4C7FF800#32 = ((67100672 : ℝ) : EReal) := by
  simp [Ideal.ofBits, Ideal.ieee, -EReal.coe_mul]; norm_num
theorem c_four : Ideal.ofBits .f32 0x40800000#32 = ((4 : ℝ) : EReal) := by
  simp [Ideal.ofBits, Ideal.ieee, -EReal.coe_mul]; norm_num
theorem c_16 : Ideal.ofBits .f32 0x41800000#32 = ((16 : ℝ) : EReal) := by
  simp [Ideal.ofBits, Ideal.ieee, -EReal.coe_mul]; norm_num
theorem c_neg_one : Ideal.ofBits .f32 0xBF800000#32 = ((-1 : ℝ) : EReal) := by
  simp [Ideal.ofBits, Ideal.ieee, -EReal.coe_mul]; norm_num
theorem c_neg_two : Ideal.ofBits .f32 0xC0000000#32 = ((-2 : ℝ) : EReal) := by
  simp [Ideal.ofBits, Ideal.ieee, -EReal.coe_mul]; norm_num

section Samples
variable (x0 x1 : Arg Ideal) (S T : Fin 4096 → Fin 3 → ℝ)
  (hS : ∀ (p : Fin 4096) (k : Fin 3), (x0 : S4096x3.Idx → EReal) (ix2 p k) = ((S p k : ℝ) : EReal))
  (hT : ∀ (p : Fin 4096) (k : Fin 3), (x1 : S4096x3.Idx → EReal) (ix2 p k) = ((T p k : ℝ) : EReal))
include hS hT

/-- The two arguments laid end to end are the pooled sample. -/
theorem v50_apply (i : Fin 8192) (k : Fin 3) :
    (Cert.ReferenceIdeal.Read.val_main_v50 (F := Ideal) x0 x1 : S8192x3.Idx → EReal) (ix2 i k)
      = ((Cert.Mmd.pool S T i k : ℝ) : EReal) := by
  unfold Cert.ReferenceIdeal.Read.val_main_v50
  by_cases h : i.val < 4096
  · refine (concatenate_pair_apply_left (0 : Fin 2) x0 x1 _ (ix2 i k) rfl (ix2 (⟨i.val, h⟩ : Fin 4096) k)
      (fun b => match b with | ⟨0, _⟩ => rfl | ⟨1, _⟩ => rfl)).trans ?_
    rw [hS]; unfold Cert.Mmd.pool; rw [dif_pos h]
  · refine (concatenate_pair_apply_right (0 : Fin 2) x0 x1 _ (ix2 i k) rfl rfl
      (ix2 (⟨i.val - 4096, by have := i.isLt; omega⟩ : Fin 4096) k)
      (fun b => match b with | ⟨0, _⟩ => fun hb => absurd rfl hb | ⟨1, _⟩ => fun _ => rfl)
      (by show i.val - 4096 + 4096 = i.val; omega)).trans ?_
    rw [hT]; unfold Cert.Mmd.pool; rw [dif_neg h]

/-- The row sums of squares of the pooled sample are its squared norms. -/
theorem v52_apply (i : Fin 8192) :
    (Cert.ReferenceIdeal.Read.val_main_v52 (F := Ideal) x0 x1 : S8192.Idx → EReal) (ix1 i)
      = ((Cert.Mmd.sqn (Cert.Mmd.pool S T) i : ℝ) : EReal) := by
  rw [Cert.ReferenceIdeal.Read.val_main_v52_apply]
  have h0 : (Cert.ReferenceIdeal.Read.val_main_cst_13 (F := Ideal)) (Shape.Idx.first Cert.ReferenceIdeal.Gen.h_S_) = 0 :=
    Ideal.ofBits_zero_f32
  rw [h0, zero_add]
  unfold Cert.Mmd.sqn
  rw [coe_sum]
  refine Finset.sum_congr rfl fun k _ => ?_
  rw [Cert.ReferenceIdeal.Read.val_main_v51_apply]
  have e : Cert.ReferenceIdeal.Read.idx_main_v52 (ix1 i) k = ix2 i k := by
    funext a; match a with | ⟨0, _⟩ => rfl | ⟨1, _⟩ => rfl
  rw [e, v50_apply x0 x1 S T hS hT]
  exact (EReal.coe_mul _ _).symm

end Samples

/-- The initial value of every sum is zero. -/
theorem init_zero (i : S_.Idx) : (constant (F := Ideal) S_ .f32 0x00000000#32 : S_.Idx → EReal) i = 0 :=
  Ideal.ofBits_zero_f32

/-- A sum over the indices of a rank-1 array is the sum over its coordinate. -/
theorem sum_ix1 {n : Nat} (f : (⟨1, ![n]⟩ : Shape).Idx → EReal) : ∑ i, f i = ∑ a : Fin n, f (ix1 a) :=
  (Equiv.sum_comp (⟨fun a => ix1 a, fun i => i 0, fun _ => rfl, fun i => (eq_ix1 i).symm⟩ :
    Fin n ≃ (⟨1, ![n]⟩ : Shape).Idx) f).symm

/-- A broadcast scalar reads the scalar everywhere. -/
theorem bcast0_apply {t : Shape} (h : S_.BroadcastsInDim t (![] : Fin 0 → Fin t.rank))
    (y : (⟨S_, .f32⟩ : BufTy).Contents (Elt Ideal)) (i : t.Idx) :
    (broadcastInDim t ![] h y : t.Idx → EReal) i = (y : S_.Idx → EReal) ix0 :=
  broadcastInDim_apply _ h y i ix0 (fun a => a.elim0)

section Samples
variable (x0 x1 : Arg Ideal) (S T : Fin 4096 → Fin 3 → ℝ)
  (hS : ∀ (p : Fin 4096) (k : Fin 3), (x0 : S4096x3.Idx → EReal) (ix2 p k) = ((S p k : ℝ) : EReal))
  (hT : ∀ (p : Fin 4096) (k : Fin 3), (x1 : S4096x3.Idx → EReal) (ix2 p k) = ((T p k : ℝ) : EReal))
include hS hT

/-- The sum of the squared norms of the pooled sample. -/
theorem kv53_apply :
    (kv53 (F := Ideal) x0 x1 : S_.Idx → EReal) ix0 = ((∑ i, Cert.Mmd.sqn (Cert.Mmd.pool S T) i : ℝ) : EReal) := by
  unfold kv53
  have hy := v52_apply x0 x1 S T hS hT
  generalize Cert.ReferenceIdeal.Read.val_main_v52 (F := Ideal) x0 x1 = y at hy
  simp only [Host.reduceAdd, Ideal.hostReduceAdd_def]
  rw [Ideal.hostReduceAdd_total reducesTo_S8192_S_d0 (fun b => b.elim0), init_zero, zero_add]
  refine (sum_ix1 (n := 8192) y).trans ?_
  rw [coe_sum]
  exact Finset.sum_congr rfl fun i _ => hy i

/-- The column sums of the pooled sample. -/
theorem kv54_apply (k : Fin 3) :
    (kv54 (F := Ideal) x0 x1 : S3.Idx → EReal) (ix1 k) = ((∑ i, Cert.Mmd.pool S T i k : ℝ) : EReal) := by
  unfold kv54
  have hy := v50_apply x0 x1 S T hS hT
  generalize Cert.ReferenceIdeal.Read.val_main_v50 (F := Ideal) x0 x1 = y at hy
  simp only [Host.reduceAdd, Ideal.hostReduceAdd_def]
  rw [Ideal.hostReduceAdd_single reducesTo_S8192x3_S3_d0 (by decide), init_zero, zero_add, coe_sum]
  refine Finset.sum_congr rfl fun i _ => ?_
  rw [← hy i k]
  exact congrArg y (funext fun a => Fin.ext (by match a with | ⟨0, _⟩ => rfl | ⟨1, _⟩ => rfl))

/-- The sum of their squares. -/
theorem kv56_apply :
    (kv56 (F := Ideal) x0 x1 : S_.Idx → EReal) ix0
      = ((∑ d, (∑ i, Cert.Mmd.pool S T i d) * (∑ i, Cert.Mmd.pool S T i d) : ℝ) : EReal) := by
  unfold kv56
  have hy : ∀ k : Fin 3, (kv55 (F := Ideal) x0 x1 : S3.Idx → EReal) (ix1 k)
      = (((∑ i, Cert.Mmd.pool S T i k) * (∑ i, Cert.Mmd.pool S T i k) : ℝ) : EReal) := by
    intro k
    show (kv54 (F := Ideal) x0 x1 : S3.Idx → EReal) (ix1 k) * (kv54 (F := Ideal) x0 x1 : S3.Idx → EReal) (ix1 k) = _
    rw [kv54_apply x0 x1 S T hS hT, ← EReal.coe_mul]
  generalize kv55 (F := Ideal) x0 x1 = y at hy
  simp only [Host.reduceAdd, Ideal.hostReduceAdd_def]
  rw [Ideal.hostReduceAdd_total reducesTo_S3_S_d0 (fun b => b.elim0), init_zero, zero_add]
  refine (sum_ix1 (n := 3) y).trans ?_
  rw [coe_sum]
  exact Finset.sum_congr rfl fun k _ => hy k

/-- The scalar folded into the operands is the real number `-1 / (16 bw)`. -/
theorem kv63_apply (hbw : Cert.Mmd.bwKer (Cert.Mmd.pool S T) ≠ 0) :
    (kv63 (F := Ideal) x0 x1 : S_.Idx → EReal) ix0 = ((Cert.Mmd.cK (Cert.Mmd.pool S T) : ℝ) : EReal) := by
  show Ideal.div (Ideal.ofBits .f32 0xBF800000#32)
      (Ideal.div (Ideal.div
        (Ideal.ofBits .f32 0x46800000#32 * (kv53 (F := Ideal) x0 x1 : S_.Idx → EReal) ix0
          - Ideal.ofBits .f32 0x40000000#32 * (kv56 (F := Ideal) x0 x1 : S_.Idx → EReal) ix0)
        (Ideal.ofBits .f32 0x4C7FF800#32)) (Ideal.ofBits .f32 0x40800000#32) * Ideal.ofBits .f32 0x41800000#32) = _
  rw [kv53_apply x0 x1 S T hS hT, kv56_apply x0 x1 S T hS hT, c_16384, c_two, c_pairs, c_four, c_16, c_neg_one]
  rw [← EReal.coe_mul, ← EReal.coe_mul, ← EReal.coe_sub, Ideal.div_coe (y := 67100672) (by norm_num), ← EReal.coe_mul,
    Ideal.div_coe (y := 4) (by norm_num), ← EReal.coe_mul, ← EReal.coe_mul]
  have e : (16384 * ∑ i, Cert.Mmd.sqn (Cert.Mmd.pool S T) i
        - 2 * ∑ d, (∑ i, Cert.Mmd.pool S T i d) * (∑ i, Cert.Mmd.pool S T i d)) * (1 / 67100672) * (1 / 4) * 16
      = Cert.Mmd.bwKer (Cert.Mmd.pool S T) * 16 := by
    unfold Cert.Mmd.bwKer; ring
  rw [e, Ideal.div_coe (mul_ne_zero hbw (by norm_num)), ← EReal.coe_mul]
  unfold Cert.Mmd.cK
  congr 1; ring

end Samples

section OneSample
variable (x : Arg Ideal) (S : Fin 4096 → Fin 3 → ℝ)
  (hx : ∀ (p : Fin 4096) (k : Fin 3), (x : S4096x3.Idx → EReal) (ix2 p k) = ((S p k : ℝ) : EReal))
include hx

/-- One argument's row sums of squares are its squared norms. -/
theorem kv65_apply (i : Fin 4096) :
    (kv65 (F := Ideal) x : S4096.Idx → EReal) (ix1 i) = ((Cert.Mmd.sqn S i : ℝ) : EReal) := by
  unfold kv65
  have hy : ∀ k : Fin 3, (kv64 (F := Ideal) x : S4096x3.Idx → EReal) (ix2 i k) = ((S i k * S i k : ℝ) : EReal) := by
    intro k
    show (x : S4096x3.Idx → EReal) (ix2 i k) * (x : S4096x3.Idx → EReal) (ix2 i k) = _
    rw [hx, ← EReal.coe_mul]
  generalize kv64 (F := Ideal) x = y at hy
  simp only [Host.reduceAdd, Ideal.hostReduceAdd_def]
  rw [Ideal.hostReduceAdd_single reducesTo_S4096x3_S4096_d1 (by decide), init_zero, zero_add]
  unfold Cert.Mmd.sqn
  rw [coe_sum]
  refine Finset.sum_congr rfl fun k _ => ?_
  rw [← hy k]
  exact congrArg y (funext fun a => Fin.ext (by match a with | ⟨0, _⟩ => rfl | ⟨1, _⟩ => rfl))

/-- … as a column … -/
theorem kv66_apply (i : Fin 4096) (z : Fin 1) :
    (kv66 (F := Ideal) x : S4096x1.Idx → EReal) (ix2 i z) = ((Cert.Mmd.sqn S i : ℝ) : EReal) := by
  rw [← kv65_apply x S hx i]
  unfold kv66
  generalize kv65 (F := Ideal) x = y
  exact broadcastInDim_apply _ bcast_S4096_S4096x1_0 y (ix2 i z) (ix1 i) (fun a => match a with
    | ⟨0, _⟩ => by show i.val = if (4096 : Nat) = 1 then 0 else i.val; rw [if_neg (by decide)])

/-- … and as a row. -/
theorem kv70_apply (z : Fin 1) (j : Fin 4096) :
    (kv70 (F := Ideal) x : S1x4096.Idx → EReal) (ix2 z j) = ((Cert.Mmd.sqn S j : ℝ) : EReal) := by
  rw [← kv66_apply x S hx j z]
  unfold kv70
  generalize kv66 (F := Ideal) x = y
  exact transpose_apply [1, 0] y transposes_S4096x1_S1x4096_1_0 (ix2 z j) (ix2 j z) (fun b => match b with
    | ⟨0, _⟩ => rfl
    | ⟨1, _⟩ => rfl)

/-- The argument transposed. -/
theorem kv75_apply (k : Fin 3) (j : Fin 4096) :
    (kv75 (F := Ideal) x : S3x4096.Idx → EReal) (ix2 k j) = ((S j k : ℝ) : EReal) := by
  rw [← hx j k]
  unfold kv75
  exact transpose_apply [1, 0] x transposes_S4096x3_S3x4096_1_0 (ix2 k j) (ix2 j k) (fun b => match b with
    | ⟨0, _⟩ => rfl
    | ⟨1, _⟩ => rfl)

end OneSample

section Fields
variable (x0 x1 : Arg Ideal) (S T : Fin 4096 → Fin 3 → ℝ)
  (hS : ∀ (p : Fin 4096) (k : Fin 3), (x0 : S4096x3.Idx → EReal) (ix2 p k) = ((S p k : ℝ) : EReal))
  (hT : ∀ (p : Fin 4096) (k : Fin 3), (x1 : S4096x3.Idx → EReal) (ix2 p k) = ((T p k : ℝ) : EReal))
  (hbw : Cert.Mmd.bwKer (Cert.Mmd.pool S T) ≠ 0)
include hS hT hbw

/-- The second sample transposed and scaled by `-2c`. -/
theorem kv78_apply (k : Fin 3) (j : Fin 4096) :
    (kv78 (F := Ideal) x0 x1 : S3x4096.Idx → EReal) (ix2 k j)
      = ((T j k * (-2 * Cert.Mmd.cK (Cert.Mmd.pool S T)) : ℝ) : EReal) := by
  show (kv75 (F := Ideal) x1 : S3x4096.Idx → EReal) (ix2 k j)
    * (broadcastInDim S3x4096 ![] bcast_S_S3x4096 (kv76 (F := Ideal) x0 x1) : S3x4096.Idx → EReal) (ix2 k j) = _
  rw [kv75_apply x1 T hT, bcast0_apply]
  show _ * (Ideal.ofBits .f32 0xC0000000#32 * (kv63 (F := Ideal) x0 x1 : S_.Idx → EReal) ix0) = _
  rw [kv63_apply x0 x1 S T hS hT hbw, c_neg_two, ← EReal.coe_mul, ← EReal.coe_mul]

/-- Column 0 of the packed columns: `c|S i|²`. -/
theorem kv81_col0 (i : Fin 4096) :
    (kv81 (F := Ideal) x0 x1 : S4096x2.Idx → EReal) (ix2 i (0 : Fin 2))
      = ((Cert.Mmd.cK (Cert.Mmd.pool S T) * Cert.Mmd.sqn S i : ℝ) : EReal) := by
  unfold kv81
  refine (concatenate_pair_apply_left (1 : Fin 2) (kv72 (F := Ideal) x0 x1) (kv79 (F := Ideal) x0) _ (ix2 i (0 : Fin 2)) rfl
    (ix2 i (0 : Fin 1)) (fun b => match b with | ⟨0, _⟩ => rfl | ⟨1, _⟩ => rfl)).trans ?_
  show (broadcastInDim S4096x1 ![] bcast_S_S4096x1 (kv63 (F := Ideal) x0 x1) : S4096x1.Idx → EReal) (ix2 i (0 : Fin 1))
    * (kv66 (F := Ideal) x0 : S4096x1.Idx → EReal) (ix2 i (0 : Fin 1)) = _
  rw [bcast0_apply, kv63_apply x0 x1 S T hS hT hbw, kv66_apply x0 S hS, ← EReal.coe_mul]

/-- Row 0 of the packed rows: `c|T j|²`. -/
theorem kv82_row0 (j : Fin 4096) :
    (kv82 (F := Ideal) x0 x1 : S2x4096.Idx → EReal) (ix2 (0 : Fin 2) j)
      = ((Cert.Mmd.cK (Cert.Mmd.pool S T) * Cert.Mmd.sqn T j : ℝ) : EReal) := by
  unfold kv82
  refine (concatenate_pair_apply_left (0 : Fin 2) (kv74 (F := Ideal) x0 x1) (kv80 (F := Ideal) x1) _ (ix2 (0 : Fin 2) j) rfl
    (ix2 (0 : Fin 1) j) (fun b => match b with | ⟨0, _⟩ => rfl | ⟨1, _⟩ => rfl)).trans ?_
  show (broadcastInDim S1x4096 ![] bcast_S_S1x4096 (kv63 (F := Ideal) x0 x1) : S1x4096.Idx → EReal) (ix2 (0 : Fin 1) j)
    * (kv70 (F := Ideal) x1 : S1x4096.Idx → EReal) (ix2 (0 : Fin 1) j) = _
  rw [bcast0_apply, kv63_apply x0 x1 S T hS hT hbw, kv70_apply x1 T hT, ← EReal.coe_mul]

end Fields

section Weights
variable (x0 x1 : Arg Ideal)

/-- Column 1 of the packed columns: the first weight vector. -/
theorem kv81_col1 (i : Fin 4096) :
    (kv81 (F := Ideal) x0 x1 : S4096x2.Idx → EReal) (ix2 i (1 : Fin 2))
      = (Cert.ReferenceIdeal.Read.val_main_v24 (F := Ideal) x0 : S4096.Idx → EReal) (ix1 i) := by
  unfold kv81
  refine (concatenate_pair_apply_right (1 : Fin 2) (kv72 (F := Ideal) x0 x1) (kv79 (F := Ideal) x0) _ (ix2 i (1 : Fin 2)) rfl rfl
    (ix2 i (0 : Fin 1)) (fun b => match b with | ⟨0, _⟩ => fun _ => rfl | ⟨1, _⟩ => fun hb => absurd rfl hb)
    (by show 0 + 1 = 1; rfl)).trans ?_
  unfold kv79
  generalize Cert.ReferenceIdeal.Read.val_main_v24 (F := Ideal) x0 = y
  exact broadcastInDim_apply _ bcast_S4096_S4096x1_0 y (ix2 i (0 : Fin 1)) (ix1 i) (fun a => match a with
    | ⟨0, _⟩ => by show i.val = if (4096 : Nat) = 1 then 0 else i.val; rw [if_neg (by decide)])

/-- Row 1 of the packed rows: the second weight vector. -/
theorem kv82_row1 (j : Fin 4096) :
    (kv82 (F := Ideal) x0 x1 : S2x4096.Idx → EReal) (ix2 (1 : Fin 2) j)
      = (Cert.ReferenceIdeal.Read.val_main_v49 (F := Ideal) x1 : S4096.Idx → EReal) (ix1 j) := by
  unfold kv82
  refine (concatenate_pair_apply_right (0 : Fin 2) (kv74 (F := Ideal) x0 x1) (kv80 (F := Ideal) x1) _ (ix2 (1 : Fin 2) j) rfl rfl
    (ix2 (0 : Fin 1) j) (fun b => match b with | ⟨0, _⟩ => fun hb => absurd rfl hb | ⟨1, _⟩ => fun _ => rfl)
    (by show 0 + 1 = 1; rfl)).trans ?_
  unfold kv80
  generalize Cert.ReferenceIdeal.Read.val_main_v49 (F := Ideal) x1 = y
  exact broadcastInDim_apply _ bcast_S4096_S1x4096_1 y (ix2 (0 : Fin 1) j) (ix1 j) (fun a => match a with
    | ⟨0, _⟩ => by show j.val = if (4096 : Nat) = 1 then 0 else j.val; rw [if_neg (by decide)])

end Weights

end Values

/-- The region's operand arrays, from the launch contents of the two arguments. -/
theorem hostVals (m : (ℓ : Loc nD τ sig) → Buf (Elt Ideal) ℓ) (c : Dev nD)
    (S T : Fin 4096 → Fin 3 → ℝ) (u v : Fin 4096 → ℝ)
    (hS : ∀ (p : Fin 4096) (k : Fin 3),
      (m ((c.tc : Thread nD τ).loc main_arg0) : S4096x3.Idx → EReal) (ix2 p k) = ((S p k : ℝ) : EReal))
    (hT : ∀ (p : Fin 4096) (k : Fin 3),
      (m ((c.tc : Thread nD τ).loc main_arg1) : S4096x3.Idx → EReal) (ix2 p k) = ((T p k : ℝ) : EReal))
    (hu : ∀ p : Fin 4096, Cert.ReferenceIdeal.Read.val_main_v24 (F := Ideal)
      (m ((c.tc : Thread nD τ).loc main_arg0)) (ix1 p) = ((u p : ℝ) : EReal))
    (hv : ∀ p : Fin 4096, Cert.ReferenceIdeal.Read.val_main_v49 (F := Ideal)
      (m ((c.tc : Thread nD τ).loc main_arg1)) (ix1 p) = ((v p : ℝ) : EReal))
    (hbw : Cert.Mmd.bwKer (Cert.Mmd.pool S T) ≠ 0) :
    Cert.KernelIdeal.Iface.HostVals m c S T u v where
  src := fun i k => by rw [Gen.V_main_arg0]; exact hS i k
  tgtT := fun k j => by rw [V_v78]; exact kv78_apply _ _ S T hS hT hbw k j
  col0 := fun i => by rw [V_v81]; exact kv81_col0 _ _ S T hS hT hbw i
  col1 := fun i => by rw [V_v81]; exact (kv81_col1 _ _ i).trans (hu i)
  row0 := fun j => by rw [V_v82]; exact kv82_row0 _ _ S T hS hT hbw j
  row1 := fun j => by rw [V_v82]; exact (kv82_row1 _ _ j).trans (hv j)

end Cert.KernelIdeal.Host

end
-- ==== Proof.PayloadValue.lean ====
/-
  The kernel body's arithmetic at an index. Given the four input blocks of a tile with real entries — the 1024 rows
  `s` of the first sample, the 3 × 1024 pre-scaled transposed rows `tt` of the second, the columns `a` (pre-scaled
  squared norms) and `w` (weights) of the packed column block, the rows `b` and `z` of the packed row block — the value
  the body stores at entry `y` of the 8 × 128 accumulator is the entry it found there plus the tile's weighted sum
  `Σ_i (Σ_j chain5 ((a i + b j) + Σ_d s i d · tt d j) · z j) · w i`: the same number at every entry.
-/
import proofs.«415581_j7954279432506_3_alg».proof.Proof.Gen.KernelIdeal.Skeleton
import proofs.«415581_j7954279432506_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx
open BigOperators

/-! ## Sums of coercions -/

/-- The coercion of a finite sum of reals is the sum of the coercions. -/
theorem coe_sum {ι : Type} (t : Finset ι) (f : ι → ℝ) :
    ((∑ i ∈ t, f i : ℝ) : EReal) = ∑ i ∈ t, ((f i : ℝ) : EReal) := by
  classical
  refine Finset.induction_on t ?_ ?_
  · rw [Finset.sum_empty, Finset.sum_empty, EReal.coe_zero]
  · intro k t hk ih
    rw [Finset.sum_insert hk, Finset.sum_insert hk, EReal.coe_add, ih]

/-! ## The layout operations of the body at an index -/

section Layout
variable {α : Type}

/-- The exponential of a vector is taken entry by entry. -/
theorem exp_apply (x : FVec Ideal S1024x1024 .f32) (k : S1024x1024.Idx) : exp x k = Ideal.exp (x k) := rfl

/-- A 1024 × 1 column broadcast to 1024 × 1024 reads, at (i, j), the column at i. -/
theorem bcast_col_apply (v : S1024x1.Idx → α) (h : S1024x1.Broadcasts S1024x1024) (i j : Fin 1024) :
    broadcastTo S1024x1024 v h (ix2 i j) = v (ix2 i (0 : Fin 1)) := by
  refine broadcastTo_apply v h (ix2 i j) (ix2 i (0 : Fin 1)) fun ax => ?_
  match ax with
  | ⟨0, _⟩ => rfl
  | ⟨1, _⟩ => rfl

/-- A 1 × 1024 row broadcast to 1024 × 1024 reads, at (i, j), the row at j. -/
theorem bcast_row_apply (v : S1x1024.Idx → α) (h : S1x1024.Broadcasts S1024x1024) (i j : Fin 1024) :
    broadcastTo S1024x1024 v h (ix2 i j) = v (ix2 (0 : Fin 1) j) :=
  broadcastTo_1b_ab_apply v h i j

/-- A 1 × 1 array broadcast to 8 × 128 reads its one entry everywhere. -/
theorem bcast_one_apply (v : S1x1.Idx → α) (h : S1x1.Broadcasts S8x128) (p : Fin 8) (q : Fin 128) :
    broadcastTo S8x128 v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- A length-1024 array cast to a 1024 × 1 column reads, at (i, 0), the array at i. -/
theorem cast_col_apply (v : S1024.Idx → α) (h : S1024.ShapeCasts S1024x1) (i : Fin 1024) :
    shapeCast S1024x1 v h (ix2 i (0 : Fin 1)) = v (ix1 i) :=
  shapeCast_apply v h _ _ (by
    rw [Shape.rowMajor_val_two, Shape.rowMajor_val_one]
    show i.val = i.val * 1 + 0
    omega)

/-- A length-1 array cast to 1 × 1 reads its one entry. -/
theorem cast_one_apply (v : S1.Idx → α) (h : S1.ShapeCasts S1x1) :
    shapeCast S1x1 v h (ix2 (0 : Fin 1) (0 : Fin 1)) = v (ix1 (0 : Fin 1)) :=
  shapeCast_a_1a_apply v h (0 : Fin 1) (0 : Fin 1)

/-- Column k of the 1024 × 3 block, cut out as a 1024 × 1 column, reads at (i, 0) the block at (i, k). -/
theorem slice_col_apply (x : S1024x3.Idx → α) (o : Nat) (h : S1024x3.Slices ![0, o] S1024x1) (k : Fin 3) (hk : k.val = o)
    (i : Fin 1024) : extractStridedSlice S1024x1 ![0, o] x h (ix2 i (0 : Fin 1)) = x (ix2 i k) :=
  slice2_axis1_apply o x h i (0 : Fin 1) k (by rw [hk]; rfl)

/-- Row k of the 3 × 1024 block, cut out as a 1 × 1024 row, reads at (0, j) the block at (k, j). -/
theorem slice_row_apply (x : S3x1024.Idx → α) (o : Nat) (h : S3x1024.Slices ![o, 0] S1x1024) (k : Fin 3) (hk : k.val = o)
    (j : Fin 1024) : extractStridedSlice S1x1024 ![o, 0] x h (ix2 (0 : Fin 1) j) = x (ix2 k j) :=
  slice2_axis0_apply o x h (0 : Fin 1) j k (by rw [hk]; rfl)

end Layout

/-! ## The two sums of the body -/

/-- The sum along the lanes of a 1024 × 1024 array from the zero word: at i, the sum over j of the entries (i, j). -/
theorem rowsum_apply (v : FVec Ideal S1024x1024 .f32) (h : S1024x1024.Reduces [1] S1024) (hφ : FKind.Formats .f32)
    (hacc : (0x00000000#32 : BitVec 32) = 0x00000000#32) (i : Fin 1024) :
    multiReduction (F := Ideal) .add [1] S1024 v 0x00000000#32 h hφ hacc (ix1 i) = ∑ j : Fin 1024, v (ix2 i j) := by
  refine (Ideal.multiReduction_add_single v 0x00000000#32 h hφ hacc (ix1 i)).trans ?_
  refine Finset.sum_congr rfl fun j _ => congrArg v ?_
  funext c
  apply Fin.ext
  rw [Shape.Reduces.lift_val]
  match c with
  | ⟨0, _⟩ => rfl
  | ⟨1, _⟩ => rfl

/-- The sum down a 1024 × 1 column from the zero word: the sum over i of the entries (i, 0). -/
theorem colsum_apply (v : FVec Ideal S1024x1 .f32) (h : S1024x1.Reduces [0] S1) (hφ : FKind.Formats .f32)
    (hacc : (0x00000000#32 : BitVec 32) = 0x00000000#32) :
    multiReduction (F := Ideal) .add [0] S1 v 0x00000000#32 h hφ hacc (ix1 (0 : Fin 1))
      = ∑ i : Fin 1024, v (ix2 i (0 : Fin 1)) := by
  refine (Ideal.multiReduction_add_single v 0x00000000#32 h hφ hacc (ix1 (0 : Fin 1))).trans ?_
  refine Finset.sum_congr rfl fun i _ => congrArg v ?_
  funext c
  apply Fin.ext
  rw [Shape.Reduces.lift_val]
  match c with
  | ⟨0, _⟩ => rfl
  | ⟨1, _⟩ => rfl

/-! ## The store's value over arrays of reals -/

/-- The stored value when the two 1024 × 1024 operands, the weight column, the weight row and the entry found are reals. -/
theorem pay1_of_real (v26 : FVec Ideal S1024x1 .f32) (v30 : FVec Ideal S1x1024 .f32) (V9 V10 : FVec Ideal S1024x1024 .f32)
    (v51 : Vec Ideal S8x128 .f32) (c9 c10 : Fin 1024 → Fin 1024 → ℝ) (w z : Fin 1024 → ℝ) (o : ℝ) (p : Fin 8) (q : Fin 128)
    (h26 : ∀ i : Fin 1024, v26 (ix2 i (0 : Fin 1)) = ((w i : ℝ) : EReal))
    (h30 : ∀ j : Fin 1024, v30 (ix2 (0 : Fin 1) j) = ((z j : ℝ) : EReal))
    (h9 : ∀ i j : Fin 1024, V9 (ix2 i j) = ((c9 i j : ℝ) : EReal))
    (h10 : ∀ i j : Fin 1024, V10 (ix2 i j) = ((c10 i j : ℝ) : EReal))
    (h51 : v51 (ix2 p q) = ((o : ℝ) : EReal)) :
    k0_pay1 (F := Ideal) v26 v30 V9 V10 v51 (ix2 p q)
      = ((o + ∑ i : Fin 1024, (∑ j : Fin 1024, (c10 i j + c9 i j) * z j) * w i : ℝ) : EReal) := by
  unfold k0_pay1
  dsimp only
  rw [addf_apply, shapeCast_self, h51, bcast_one_apply, shapeCast_self, cast_one_apply, colsum_apply,
    EReal.coe_add, coe_sum]
  congr 1
  refine Finset.sum_congr rfl fun i _ => ?_
  rw [mulf_apply, cast_col_apply, rowsum_apply, h26, EReal.coe_mul, coe_sum]
  congr 1
  refine Finset.sum_congr rfl fun j _ => ?_
  rw [mulf_apply, addf_apply, h10, h9, bcast_row_apply, h30, ← EReal.coe_add, ← EReal.coe_mul]

/-! ## The 1024 × 1024 operands at an index -/

section Operands

variable (x0 : Vec Ideal S1024x3 .f32) (x1 : Vec Ideal S3x1024 .f32) (v23 : Vec Ideal S1024x1 .f32) (v27 : Vec Ideal S1x1024 .f32)
  (s : Fin 1024 → Fin 3 → ℝ) (tt : Fin 3 → Fin 1024 → ℝ) (a b : Fin 1024 → ℝ)
  (hx0 : ∀ (i : Fin 1024) (k : Fin 3), x0 (ix2 i k) = ((s i k : ℝ) : EReal))
  (hx1 : ∀ (k : Fin 3) (j : Fin 1024), x1 (ix2 k j) = ((tt k j : ℝ) : EReal))
  (h23 : ∀ i : Fin 1024, v23 (ix2 i (0 : Fin 1)) = ((a i : ℝ) : EReal))
  (h27 : ∀ j : Fin 1024, v27 (ix2 (0 : Fin 1) j) = ((b j : ℝ) : EReal))

/-- The exponent of the widest Gaussian at (i, j). -/
def tileExpo (i j : Fin 1024) : ℝ := (a i + b j) + ((s i 0 * tt 0 j + s i 1 * tt 1 j) + s i 2 * tt 2 j)

include hx0 hx1 h23 h27

/-- E: the exponential of the exponent at (i, j). -/
theorem pay5_at (i j : Fin 1024) :
    k0_pay5 (F := Ideal) x0 x1 v23 v27 (ix2 i j) = ((Real.exp (tileExpo s tt a b i j) : ℝ) : EReal) := by
  unfold k0_pay5
  rw [exp_apply, addf_apply, addf_apply, addf_apply, addf_apply, mulf_apply, mulf_apply, mulf_apply,
    bcast_col_apply, bcast_col_apply, bcast_col_apply, bcast_col_apply, bcast_row_apply, bcast_row_apply, bcast_row_apply,
    bcast_row_apply, shapeCast_self, shapeCast_self, shapeCast_self,
    slice_col_apply _ 0 _ (0 : Fin 3) rfl, slice_col_apply _ 1 _ (1 : Fin 3) rfl, slice_col_apply _ 2 _ (2 : Fin 3) rfl,
    slice_row_apply _ 0 _ (0 : Fin 3) rfl, slice_row_apply _ 1 _ (1 : Fin 3) rfl, slice_row_apply _ 2 _ (2 : Fin 3) rfl,
    hx0, hx0, hx0, hx1, hx1, hx1, h23, h27,
    ← EReal.coe_mul, ← EReal.coe_mul, ← EReal.coe_mul, ← EReal.coe_add, ← EReal.coe_add, ← EReal.coe_add, ← EReal.coe_add,
    Ideal.exp_coe]
  rfl

/-- E². -/
theorem pay6_at (i j : Fin 1024) :
    k0_pay6 (F := Ideal) x0 x1 v23 v27 (ix2 i j)
      = ((Real.exp (tileExpo s tt a b i j) * Real.exp (tileExpo s tt a b i j) : ℝ) : EReal) := by
  unfold k0_pay6
  rw [mulf_apply, pay5_at x0 x1 v23 v27 s tt a b hx0 hx1 h23 h27, ← EReal.coe_mul]

/-- E⁴. -/
theorem pay7_at (i j : Fin 1024) :
    k0_pay7 (F := Ideal) x0 x1 v23 v27 (ix2 i j)
      = (((Real.exp (tileExpo s tt a b i j) * Real.exp (tileExpo s tt a b i j))
          * (Real.exp (tileExpo s tt a b i j) * Real.exp (tileExpo s tt a b i j)) : ℝ) : EReal) := by
  unfold k0_pay7
  rw [mulf_apply, pay6_at x0 x1 v23 v27 s tt a b hx0 hx1 h23 h27, ← EReal.coe_mul]

/-- E⁸. -/
theorem pay8_at (i j : Fin 1024) :
    k0_pay8 (F := Ideal) x0 x1 v23 v27 (ix2 i j)
      = ((((Real.exp (tileExpo s tt a b i j) * Real.exp (tileExpo s tt a b i j))
            * (Real.exp (tileExpo s tt a b i j) * Real.exp (tileExpo s tt a b i j)))
          * ((Real.exp (tileExpo s tt a b i j) * Real.exp (tileExpo s tt a b i j))
            * (Real.exp (tileExpo s tt a b i j) * Real.exp (tileExpo s tt a b i j))) : ℝ) : EReal) := by
  unfold k0_pay8
  rw [mulf_apply, pay7_at x0 x1 v23 v27 s tt a b hx0 hx1 h23 h27, ← EReal.coe_mul]

/-- E¹⁶. -/
theorem pay9_at (i j : Fin 1024) :
    k0_pay9 (F := Ideal) x0 x1 v23 v27 (ix2 i j)
      = (((((Real.exp (tileExpo s tt a b i j) * Real.exp (tileExpo s tt a b i j))
              * (Real.exp (tileExpo s tt a b i j) * Real.exp (tileExpo s tt a b i j)))
            * ((Real.exp (tileExpo s tt a b i j) * Real.exp (tileExpo s tt a b i j))
              * (Real.exp (tileExpo s tt a b i j) * Real.exp (tileExpo s tt a b i j))))
          * (((Real.exp (tileExpo s tt a b i j) * Real.exp (tileExpo s tt a b i j))
              * (Real.exp (tileExpo s tt a b i j) * Real.exp (tileExpo s tt a b i j)))
            * ((Real.exp (tileExpo s tt a b i j) * Real.exp (tileExpo s tt a b i j))
              * (Real.exp (tileExpo s tt a b i j) * Real.exp (tileExpo s tt a b i j)))) : ℝ) : EReal) := by
  unfold k0_pay9
  rw [mulf_apply, pay8_at x0 x1 v23 v27 s tt a b hx0 hx1 h23 h27, ← EReal.coe_mul]

/-- ((E + E²) + E⁴) + E⁸. -/
theorem pay10_at (i j : Fin 1024) :
    k0_pay10 (F := Ideal) x0 x1 v23 v27 (ix2 i j)
      = ((((Real.exp (tileExpo s tt a b i j)
            + Real.exp (tileExpo s tt a b i j) * Real.exp (tileExpo s tt a b i j))
          + (Real.exp (tileExpo s tt a b i j) * Real.exp (tileExpo s tt a b i j))
            * (Real.exp (tileExpo s tt a b i j) * Real.exp (tileExpo s tt a b i j)))
        + ((Real.exp (tileExpo s tt a b i j) * Real.exp (tileExpo s tt a b i j))
            * (Real.exp (tileExpo s tt a b i j) * Real.exp (tileExpo s tt a b i j)))
          * ((Real.exp (tileExpo s tt a b i j) * Real.exp (tileExpo s tt a b i j))
            * (Real.exp (tileExpo s tt a b i j) * Real.exp (tileExpo s tt a b i j))) : ℝ) : EReal) := by
  unfold k0_pay10
  rw [addf_apply, addf_apply, addf_apply, pay5_at x0 x1 v23 v27 s tt a b hx0 hx1 h23 h27,
    pay6_at x0 x1 v23 v27 s tt a b hx0 hx1 h23 h27, pay7_at x0 x1 v23 v27 s tt a b hx0 hx1 h23 h27,
    pay8_at x0 x1 v23 v27 s tt a b hx0 hx1 h23 h27, ← EReal.coe_add, ← EReal.coe_add, ← EReal.coe_add]

end Operands

/-! ## The stored value -/

theorem pay1_real (x0 : Vec Ideal S1024x3 .f32) (x1 : Vec Ideal S3x1024 .f32)
    (v23 v25 : Vec Ideal S1024x1 .f32) (v27 v29 : Vec Ideal S1x1024 .f32) (v51 : Vec Ideal S8x128 .f32)
    (s : Fin 1024 → Fin 3 → ℝ) (tt : Fin 3 → Fin 1024 → ℝ) (a w b z : Fin 1024 → ℝ) (o : ℝ) (y : S8x128.Idx)
    (hx0 : ∀ (i : Fin 1024) (k : Fin 3), x0 (ix2 i k) = ((s i k : ℝ) : EReal))
    (hx1 : ∀ (k : Fin 3) (j : Fin 1024), x1 (ix2 k j) = ((tt k j : ℝ) : EReal))
    (h23 : ∀ i : Fin 1024, v23 (ix2 i (0 : Fin 1)) = ((a i : ℝ) : EReal))
    (h25 : ∀ i : Fin 1024, v25 (ix2 i (0 : Fin 1)) = ((w i : ℝ) : EReal))
    (h27 : ∀ j : Fin 1024, v27 (ix2 (0 : Fin 1) j) = ((b j : ℝ) : EReal))
    (h29 : ∀ j : Fin 1024, v29 (ix2 (0 : Fin 1) j) = ((z j : ℝ) : EReal))
    (h51 : v51 y = ((o : ℝ) : EReal)) :
    k0_pay1 (F := Ideal) (k0_pay3 v25) (k0_pay4 v29) (k0_pay9 x0 x1 v23 v27) (k0_pay10 x0 x1 v23 v27) v51 y
      = ((o + ∑ i : Fin 1024, (∑ j : Fin 1024,
          Cert.Mmd.chain5 ((a i + b j) + ((s i 0 * tt 0 j + s i 1 * tt 1 j) + s i 2 * tt 2 j)) * z j) * w i : ℝ) : EReal) := by
  obtain ⟨p, q, rfl⟩ : ∃ (p : Fin 8) (q : Fin 128), y = ix2 p q := ⟨y 0, y 1, eq_ix2 y⟩
  have h26 : ∀ i : Fin 1024, k0_pay3 (F := Ideal) v25 (ix2 i (0 : Fin 1)) = ((w i : ℝ) : EReal) := by
    intro i
    unfold k0_pay3
    rw [shapeCast_self, h25]
  have h30 : ∀ j : Fin 1024, k0_pay4 (F := Ideal) v29 (ix2 (0 : Fin 1) j) = ((z j : ℝ) : EReal) := by
    intro j
    unfold k0_pay4
    rw [shapeCast_self, h29]
  exact pay1_of_real (k0_pay3 v25) (k0_pay4 v29) (k0_pay9 x0 x1 v23 v27) (k0_pay10 x0 x1 v23 v27) v51 _ _ w z o p q h26 h30
    (pay9_at x0 x1 v23 v27 s tt a b hx0 hx1 h23 h27) (pay10_at x0 x1 v23 v27 s tt a b hx0 hx1 h23 h27) h51

end Cert.KernelIdeal.Payload

end
-- ==== Proof.KernelAccum.lean ====
/-
  What the region leaves in its output array. The output's 8 × 128 block of row block I is carried across the four
  tiles J = 0 … 3 of its row: at J = 0 it is zeroed, and every tile adds its weighted sum to every entry. With the
  operand arrays read as real numbers, the block holds `accK I (J + 1)` at every entry after tile (I, J); it is written
  back after J = 3, when it holds row block I's sum; the 32 × 128 array ends holding, at (r, q), the sum of row
  block r / 8.
-/
import proofs.«415581_j7954279432506_3_alg».proof.Proof.KernelIface
import proofs.«415581_j7954279432506_3_alg».proof.Proof.PayloadValue
import Idealize.ShloMosaic.Lib.Pipeline.Value
import Idealize.ShloMosaic.Lib.ValueIdx

set_option maxRecDepth 16384

noncomputable section

namespace Cert.KernelIdeal.Accum

open Cert.KernelIdeal Cert.KernelIdeal.Gen Cert.KernelIdeal.Iface
open Idealize.ShloMosaic Idealize.ShloMosaic.TcCoe Idealize.ShloMosaic.Tactic Idealize.ShloMosaic.ValueIdx Idealize.SL.Sem
open Idealize.ShloMosaic.Pipeline (Dat Cfg Window)
open Facts₀ Facts
open BigOperators

/-! ## What one run of the body stores -/

theorem hz8 : (![0, 0] : Fin S8x128.rank → Nat) = fun _ => 0 := by
  funext a; match a with | ⟨0, _⟩ => rfl | ⟨1, _⟩ => rfl
theorem hz0 : (![0, 0] : Fin S1024x3.rank → Nat) = fun _ => 0 := by
  funext a; match a with | ⟨0, _⟩ => rfl | ⟨1, _⟩ => rfl
theorem hz1 : (![0, 0] : Fin S3x1024.rank → Nat) = fun _ => 0 := by
  funext a; match a with | ⟨0, _⟩ => rfl | ⟨1, _⟩ => rfl

/-- The value the body stores over the whole output block, from its four input blocks and the block `o` it finds:
    the payload over the two columns of the packed column block and the two rows of the packed row block. -/
def bodyVal (x0 : Vec Ideal S1024x3 .f32) (x1 : Vec Ideal S3x1024 .f32) (x2 : Vec Ideal S1024x2 .f32)
    (x3 : Vec Ideal S2x1024 .f32) (o : Vec Ideal S8x128 .f32) : Vec Ideal S8x128 .f32 :=
  k0_pay1 (F := Ideal) (k0_pay3 (View.ld x2 (Rect.unit ![0, 1] ![1024, 1] Facts₀.inb_S1024x2_S1024x1_0_1)))
    (k0_pay4 (View.ld x3 (Rect.unit ![1, 0] ![1, 1024] Facts₀.inb_S2x1024_S1x1024_1_0)))
    (k0_pay9 x0 x1 (View.ld x2 (Rect.unit ![0, 0] ![1024, 1] Facts₀.inb_S1024x2_S1024x1_0_0))
      (View.ld x3 (Rect.unit ![0, 0] ![1, 1024] Facts₀.inb_S2x1024_S1x1024_0_0)))
    (k0_pay10 x0 x1 (View.ld x2 (Rect.unit ![0, 0] ![1024, 1] Facts₀.inb_S1024x2_S1024x1_0_0))
      (View.ld x3 (Rect.unit ![0, 0] ![1, 1024] Facts₀.inb_S2x1024_S1x1024_0_0)))
    o

/-- A tile that is not the first of its row stores the payload over the block the tile before left. -/
theorem pieceB (c : Dev nD) (i : grid0.Coords) (arg2 : Memref sig .tc .vmem S1024x3 .f32) (harg2 : arg2.IsWhole) (arg3 : Memref sig .tc .vmem S3x1024 .f32) (harg3 : arg3.IsWhole) (arg4 : Memref sig .tc .vmem S1024x2 .f32) (harg4 : arg4.IsWhole) (arg5 : Memref sig .tc .vmem S2x1024 .f32) (harg5 : arg5.IsWhole) (arg6 : Memref sig .tc .vmem S8x128 .f32) (harg6 : arg6.IsWhole) (hc0 : ¬cond0_0 i)
    (x0 : Vec Ideal S1024x3 .f32) (x1 : Vec Ideal S3x1024 .f32) (x2 : Vec Ideal S1024x2 .f32) (x3 : Vec Ideal S2x1024 .f32) (xo4 : Vec Ideal S8x128 .f32) :
    out0_B_4 (F := Ideal) c i arg2 harg2 arg3 harg3 arg4 harg4 arg5 harg5 arg6 harg6 hc0 x0 x1 x2 x3 xo4 = bodyVal x0 x1 x2 x3 xo4 := by
  unfold out0_B_4
  rw [View.read_writes_eq_canon _ _ _ (cover0_B_4 c i arg2 harg2 arg3 harg3 arg4 harg4 arg5 harg5 arg6 harg6 hc0 x0 x1 x2 x3 xo4)]
  unfold kernelRun0_B
  dsimp only
  sl_unfold_words
  rw [View.canon_unit_zero hz8]
  simp only [View.readAt_eq_ld, harg2.read_unread, harg3.read_unread, harg4.read_unread, harg5.read_unread, harg6.read_unread,
    View.ld_unit_zero (S := S8x128) hz8, View.ld_unit_zero (S := S1024x3) hz0, View.ld_unit_zero (S := S3x1024) hz1]
  rfl

/-- The first tile of a row stores the payload over the zero block it has just written. -/
theorem pieceA (c : Dev nD) (i : grid0.Coords) (arg2 : Memref sig .tc .vmem S1024x3 .f32) (harg2 : arg2.IsWhole) (arg3 : Memref sig .tc .vmem S3x1024 .f32) (harg3 : arg3.IsWhole) (arg4 : Memref sig .tc .vmem S1024x2 .f32) (harg4 : arg4.IsWhole) (arg5 : Memref sig .tc .vmem S2x1024 .f32) (harg5 : arg5.IsWhole) (arg6 : Memref sig .tc .vmem S8x128 .f32) (harg6 : arg6.IsWhole) (hc0 : cond0_0 i)
    (x0 : Vec Ideal S1024x3 .f32) (x1 : Vec Ideal S3x1024 .f32) (x2 : Vec Ideal S1024x2 .f32) (x3 : Vec Ideal S2x1024 .f32) :
    out0_A_4 (F := Ideal) c i arg2 harg2 arg3 harg3 arg4 harg4 arg5 harg5 arg6 harg6 hc0 x0 x1 x2 x3 = bodyVal x0 x1 x2 x3 (k0_pay2 (F := Ideal)) := by
  unfold out0_A_4
  rw [View.read_writes_eq_canon _ _ _ (cover0_A_4 c i arg2 harg2 arg3 harg3 arg4 harg4 arg5 harg5 arg6 harg6 hc0 x0 x1 x2 x3)]
  unfold kernelRun0_A
  dsimp only
  sl_unfold_words
  rw [View.canon_cons_unit_zero hz8]
  simp only [View.readAt_eq_ld, harg2.read_unread, harg3.read_unread, harg4.read_unread, harg5.read_unread, harg6.read_unread,
    View.readCov_unit_zero (S := S8x128) _ hz8,
    View.ld_unit_zero (S := S8x128) hz8, View.ld_unit_zero (S := S1024x3) hz0, View.ld_unit_zero (S := S3x1024) hz1]
  rfl

/-- The stored value at entry `y`, when the blocks hold real numbers: the entry found plus the tile's weighted sum. -/
theorem bodyVal_real (x0 : Vec Ideal S1024x3 .f32) (x1 : Vec Ideal S3x1024 .f32) (x2 : Vec Ideal S1024x2 .f32)
    (x3 : Vec Ideal S2x1024 .f32) (o : Vec Ideal S8x128 .f32)
    (s : Fin 1024 → Fin 3 → ℝ) (tt : Fin 3 → Fin 1024 → ℝ) (a w b z : Fin 1024 → ℝ) (ov : ℝ) (y : S8x128.Idx)
    (hx0 : ∀ (i : Fin 1024) (k : Fin 3), x0 (ix2 i k) = ((s i k : ℝ) : EReal))
    (hx1 : ∀ (k : Fin 3) (j : Fin 1024), x1 (ix2 k j) = ((tt k j : ℝ) : EReal))
    (h2a : ∀ i : Fin 1024, x2 (ix2 i (0 : Fin 2)) = ((a i : ℝ) : EReal))
    (h2w : ∀ i : Fin 1024, x2 (ix2 i (1 : Fin 2)) = ((w i : ℝ) : EReal))
    (h3b : ∀ j : Fin 1024, x3 (ix2 (0 : Fin 2) j) = ((b j : ℝ) : EReal))
    (h3z : ∀ j : Fin 1024, x3 (ix2 (1 : Fin 2) j) = ((z j : ℝ) : EReal))
    (ho : o y = ((ov : ℝ) : EReal)) :
    bodyVal x0 x1 x2 x3 o y
      = ((ov + ∑ i : Fin 1024, (∑ j : Fin 1024,
          Cert.Mmd.chain5 ((a i + b j) + ((s i 0 * tt 0 j + s i 1 * tt 1 j) + s i 2 * tt 2 j)) * z j) * w i : ℝ) : EReal) := by
  unfold bodyVal
  refine Cert.KernelIdeal.Payload.pay1_real x0 x1 _ _ _ _ o s tt a w b z ov y hx0 hx1 ?_ ?_ ?_ ?_ ho
  · intro i
    refine Eq.trans ?_ (h2a i)
    show x2 _ = x2 _
    congr 1; funext d; apply Fin.ext
    match d with
    | ⟨0, _⟩ => show 0 + 1 * i.val = i.val; omega
    | ⟨1, _⟩ => show 0 + 1 * 0 = 0; rfl
  · intro i
    refine Eq.trans ?_ (h2w i)
    show x2 _ = x2 _
    congr 1; funext d; apply Fin.ext
    match d with
    | ⟨0, _⟩ => show 0 + 1 * i.val = i.val; omega
    | ⟨1, _⟩ => show 1 + 1 * 0 = 1; rfl
  · intro j
    refine Eq.trans ?_ (h3b j)
    show x3 _ = x3 _
    congr 1; funext d; apply Fin.ext
    match d with
    | ⟨0, _⟩ => show 0 + 1 * 0 = 0; rfl
    | ⟨1, _⟩ => show 0 + 1 * j.val = j.val; omega
  · intro j
    refine Eq.trans ?_ (h3z j)
    show x3 _ = x3 _
    congr 1; funext d; apply Fin.ext
    match d with
    | ⟨0, _⟩ => show 1 + 1 * 0 = 1; rfl
    | ⟨1, _⟩ => show 0 + 1 * j.val = j.val; omega

/-! ## Where the blocks sit -/

/-- The block indices over the 4 × 4 grid, point `t` being tile (t / 4, t % 4): the row operands and the output
    move with the row block, the column operands with the column block. -/
theorem idx_facts : ∀ t : Fin cfg0.N,
    win0_0.index t (0 : Fin 2) = t.val / 4 ∧ win0_0.index t (1 : Fin 2) = 0
    ∧ win0_1.index t (0 : Fin 2) = 0 ∧ win0_1.index t (1 : Fin 2) = t.val % 4
    ∧ win0_2.index t (0 : Fin 2) = t.val / 4 ∧ win0_2.index t (1 : Fin 2) = 0
    ∧ win0_3.index t (0 : Fin 2) = 0 ∧ win0_3.index t (1 : Fin 2) = t.val % 4
    ∧ win0_4.index t (0 : Fin 2) = t.val / 4 ∧ win0_4.index t (1 : Fin 2) = 0 :=
  (by decide +kernel : ∀ t : Fin grid0.N, _)

/-! ## The blocks of tile `t`, read off the operand arrays -/

variable (m : (ℓ : Loc nD τ sig) → Buf (Elt Ideal) ℓ)

theorem lt16 (t : Fin cfg0.N) : t.val < 16 := lt_of_lt_of_eq t.isLt (show cfg0.N = 16 from N_0)

/-- Point `t` is the tile of row block `t / 4` and column block `t % 4`. -/
def rowB (t : Fin cfg0.N) : Fin 4 := ⟨t.val / 4, by have := lt16 t; omega⟩
def colB (t : Fin cfg0.N) : Fin 4 := ⟨t.val % 4, Nat.mod_lt _ (by norm_num)⟩

abbrev blk0 (c : Dev nD) (t : Fin cfg0.N) : Vec Ideal S1024x3 .f32 := iblk m c 0 t
abbrev blk1 (c : Dev nD) (t : Fin cfg0.N) : Vec Ideal S3x1024 .f32 := iblk m c 1 t
abbrev blk2 (c : Dev nD) (t : Fin cfg0.N) : Vec Ideal S1024x2 .f32 := iblk m c 2 t
abbrev blk3 (c : Dev nD) (t : Fin cfg0.N) : Vec Ideal S2x1024 .f32 := iblk m c 3 t

variable {m}
variable {c : Dev nD} {S T : Fin 4096 → Fin 3 → ℝ} {u v : Fin 4096 → ℝ}

theorem blk0_apply (hv : HostVals m c S T u v) (t : Fin cfg0.N) (i : Fin 1024) (k : Fin 3) :
    blk0 m c t (ix2 i k) = ((S (Cert.Mmd.at4 (rowB t) i) k : ℝ) : EReal) := by
  obtain ⟨e0, e1, -⟩ := idx_facts t
  refine Eq.trans ?_ (hv.src (Cert.Mmd.at4 (rowB t) i) k)
  show (V m c main_arg0 : S4096x3.Idx → EReal) (((cfg0.win 0).blk t).view.emb (ix2 i k)) = _
  congr 1; funext a; apply Fin.ext
  match a with
  | ⟨0, _⟩ => show win0_0.index t (0 : Fin 2) * 1024 + 1 * i.val = 1024 * (t.val / 4) + i.val; omega
  | ⟨1, _⟩ => show win0_0.index t (1 : Fin 2) * 3 + 1 * k.val = k.val; omega

theorem blk1_apply (hv : HostVals m c S T u v) (t : Fin cfg0.N) (k : Fin 3) (j : Fin 1024) :
    blk1 m c t (ix2 k j)
      = ((T (Cert.Mmd.at4 (colB t) j) k * (-2 * Cert.Mmd.cK (Cert.Mmd.pool S T)) : ℝ) : EReal) := by
  obtain ⟨-, -, e0, e1, -⟩ := idx_facts t
  refine Eq.trans ?_ (hv.tgtT k (Cert.Mmd.at4 (colB t) j))
  show (V m c main_v78 : S3x4096.Idx → EReal) (((cfg0.win 1).blk t).view.emb (ix2 k j)) = _
  congr 1; funext a; apply Fin.ext
  match a with
  | ⟨0, _⟩ => show win0_1.index t (0 : Fin 2) * 3 + 1 * k.val = k.val; omega
  | ⟨1, _⟩ => show win0_1.index t (1 : Fin 2) * 1024 + 1 * j.val = 1024 * (t.val % 4) + j.val; omega

theorem blk2_apply0 (hv : HostVals m c S T u v) (t : Fin cfg0.N) (i : Fin 1024) :
    blk2 m c t (ix2 i (0 : Fin 2))
      = ((Cert.Mmd.cK (Cert.Mmd.pool S T) * Cert.Mmd.sqn S (Cert.Mmd.at4 (rowB t) i) : ℝ) : EReal) := by
  obtain ⟨-, -, -, -, e0, e1, -⟩ := idx_facts t
  refine Eq.trans ?_ (hv.col0 (Cert.Mmd.at4 (rowB t) i))
  show (V m c main_v81 : S4096x2.Idx → EReal) (((cfg0.win 2).blk t).view.emb (ix2 i (0 : Fin 2))) = _
  congr 1; funext a; apply Fin.ext
  match a with
  | ⟨0, _⟩ => show win0_2.index t (0 : Fin 2) * 1024 + 1 * i.val = 1024 * (t.val / 4) + i.val; omega
  | ⟨1, _⟩ => show win0_2.index t (1 : Fin 2) * 2 + 1 * 0 = 0; omega

theorem blk2_apply1 (hv : HostVals m c S T u v) (t : Fin cfg0.N) (i : Fin 1024) :
    blk2 m c t (ix2 i (1 : Fin 2)) = ((u (Cert.Mmd.at4 (rowB t) i) : ℝ) : EReal) := by
  obtain ⟨-, -, -, -, e0, e1, -⟩ := idx_facts t
  refine Eq.trans ?_ (hv.col1 (Cert.Mmd.at4 (rowB t) i))
  show (V m c main_v81 : S4096x2.Idx → EReal) (((cfg0.win 2).blk t).view.emb (ix2 i (1 : Fin 2))) = _
  congr 1; funext a; apply Fin.ext
  match a with
  | ⟨0, _⟩ => show win0_2.index t (0 : Fin 2) * 1024 + 1 * i.val = 1024 * (t.val / 4) + i.val; omega
  | ⟨1, _⟩ => show win0_2.index t (1 : Fin 2) * 2 + 1 * 1 = 1; omega

theorem blk3_apply0 (hv : HostVals m c S T u v) (t : Fin cfg0.N) (j : Fin 1024) :
    blk3 m c t (ix2 (0 : Fin 2) j)
      = ((Cert.Mmd.cK (Cert.Mmd.pool S T) * Cert.Mmd.sqn T (Cert.Mmd.at4 (colB t) j) : ℝ) : EReal) := by
  obtain ⟨-, -, -, -, -, -, e0, e1, -⟩ := idx_facts t
  refine Eq.trans ?_ (hv.row0 (Cert.Mmd.at4 (colB t) j))
  show (V m c main_v82 : S2x4096.Idx → EReal) (((cfg0.win 3).blk t).view.emb (ix2 (0 : Fin 2) j)) = _
  congr 1; funext a; apply Fin.ext
  match a with
  | ⟨0, _⟩ => show win0_3.index t (0 : Fin 2) * 2 + 1 * 0 = 0; omega
  | ⟨1, _⟩ => show win0_3.index t (1 : Fin 2) * 1024 + 1 * j.val = 1024 * (t.val % 4) + j.val; omega

theorem blk3_apply1 (hv : HostVals m c S T u v) (t : Fin cfg0.N) (j : Fin 1024) :
    blk3 m c t (ix2 (1 : Fin 2) j) = ((v (Cert.Mmd.at4 (colB t) j) : ℝ) : EReal) := by
  obtain ⟨-, -, -, -, -, -, e0, e1, -⟩ := idx_facts t
  refine Eq.trans ?_ (hv.row1 (Cert.Mmd.at4 (colB t) j))
  show (V m c main_v82 : S2x4096.Idx → EReal) (((cfg0.win 3).blk t).view.emb (ix2 (1 : Fin 2) j)) = _
  congr 1; funext a; apply Fin.ext
  match a with
  | ⟨0, _⟩ => show win0_3.index t (0 : Fin 2) * 2 + 1 * 1 = 1; omega
  | ⟨1, _⟩ => show win0_3.index t (1 : Fin 2) * 1024 + 1 * j.val = 1024 * (t.val % 4) + j.val; omega

/-! ## One tile, then all of them -/

/-- Running the body on tile `t`'s blocks over a block whose entry `y` is the real `ov` leaves `ov` plus the tile's
    weighted sum there. -/
theorem tile_val (hv : HostVals m c S T u v) (t : Fin cfg0.N) (o : Vec Ideal S8x128 .f32) (ov : ℝ) (y : S8x128.Idx)
    (ho : o y = ((ov : ℝ) : EReal)) :
    bodyVal (blk0 m c t) (blk1 m c t) (blk2 m c t) (blk3 m c t) o y
      = ((ov + Cert.Mmd.partialK S T u v (rowB t) (colB t) : ℝ) : EReal) :=
  bodyVal_real (blk0 m c t) (blk1 m c t) (blk2 m c t) (blk3 m c t) o
    (fun i k => S (Cert.Mmd.at4 (rowB t) i) k)
    (fun k j => T (Cert.Mmd.at4 (colB t) j) k * (-2 * Cert.Mmd.cK (Cert.Mmd.pool S T)))
    (fun i => Cert.Mmd.cK (Cert.Mmd.pool S T) * Cert.Mmd.sqn S (Cert.Mmd.at4 (rowB t) i))
    (fun i => u (Cert.Mmd.at4 (rowB t) i))
    (fun j => Cert.Mmd.cK (Cert.Mmd.pool S T) * Cert.Mmd.sqn T (Cert.Mmd.at4 (colB t) j))
    (fun j => v (Cert.Mmd.at4 (colB t) j)) ov y
    (blk0_apply hv t) (blk1_apply hv t) (blk2_apply0 hv t) (blk2_apply1 hv t) (blk3_apply0 hv t) (blk3_apply1 hv t) ho

/-- The block the first tile of a row starts from is zero. -/
theorem zero_blk (y : S8x128.Idx) : k0_pay2 (F := Ideal) y = ((0 : ℝ) : EReal) := by
  show (Ideal.ofBits .f32 0x00000000#32 : EReal) = _
  rw [Ideal.ofBits_zero_f32]; rfl

theorem accK_succ (I : Fin 4) (k : ℕ) (hk : k < 4) :
    Cert.Mmd.accK S T u v I (k + 1) = Cert.Mmd.accK S T u v I k + Cert.Mmd.partialK S T u v I ⟨k, hk⟩ := by
  show Cert.Mmd.accK S T u v I k + (if h : k < 4 then Cert.Mmd.partialK S T u v I ⟨k, h⟩ else 0) = _
  rw [dif_pos hk]

/-- THE ACCUMULATION: after tile `n` every entry of the output's block holds the sum of the tiles of its row so far. -/
theorem outs_eq (hv : HostVals m c S T u v) : ∀ (n : ℕ) (hn : n < cfg0.N) (y : S8x128.Idx),
    outsAt0 m c n hn y = ((Cert.Mmd.accK S T u v (rowB ⟨n, hn⟩) (n % 4 + 1) : ℝ) : EReal) := by
  intro n
  induction n with
  | zero =>
    intro hn y
    have h0 : (⟨0, hn⟩ : Fin cfg0.N).val % 4 = 0 := rfl
    refine (congrFun (outsAt0_A m c ⟨0, hn⟩ h0) y).trans ?_
    refine (congrFun (pieceA c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr h0) (iblk m c 0 ⟨0, hn⟩) (iblk m c 1 ⟨0, hn⟩) (iblk m c 2 ⟨0, hn⟩) (iblk m c 3 ⟨0, hn⟩)) y).trans ?_
    refine (tile_val hv ⟨0, hn⟩ _ 0 y (zero_blk y)).trans ?_
    rw [show (0 % 4 + 1 : ℕ) = 0 + 1 from rfl, accK_succ (rowB ⟨0, hn⟩) 0 (by norm_num)]
    rfl
  | succ n ih =>
    intro hn y
    have hN : n + 1 < 16 := lt16 ⟨n + 1, hn⟩
    by_cases h0 : (n + 1) % 4 = 0
    · have h0' : (⟨n + 1, hn⟩ : Fin cfg0.N).val % 4 = 0 := h0
      refine (congrFun (outsAt0_A m c ⟨n + 1, hn⟩ h0') y).trans ?_
      refine (congrFun (pieceA c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0') (iblk m c 0 ⟨n + 1, hn⟩) (iblk m c 1 ⟨n + 1, hn⟩) (iblk m c 2 ⟨n + 1, hn⟩) (iblk m c 3 ⟨n + 1, hn⟩)) y).trans ?_
      refine (tile_val hv ⟨n + 1, hn⟩ _ 0 y (zero_blk y)).trans ?_
      have hcol : colB ⟨n + 1, hn⟩ = ⟨0, by norm_num⟩ := Fin.ext h0
      rw [h0, accK_succ (rowB ⟨n + 1, hn⟩) 0 (by norm_num), hcol]
      rfl
    · have h0' : ¬(⟨n + 1, hn⟩ : Fin cfg0.N).val % 4 = 0 := h0
      have hprev := ih (Nat.lt_of_succ_lt hn) y
      have hrow : rowB ⟨n, Nat.lt_of_succ_lt hn⟩ = rowB ⟨n + 1, hn⟩ := Fin.ext (by show n / 4 = (n + 1) / 4; omega)
      have hk : n % 4 + 1 = (n + 1) % 4 := by omega
      rw [hrow, hk] at hprev
      refine (congrFun (outsAt0_B m c ⟨n + 1, hn⟩ h0') y).trans ?_
      refine (congrFun (pieceB c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0' ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 m c n (Nat.lt_of_succ_lt hn))) y).trans ?_
      refine (tile_val hv ⟨n + 1, hn⟩ _ _ y hprev).trans ?_
      rw [accK_succ (rowB ⟨n + 1, hn⟩) ((n + 1) % 4) (Nat.mod_lt _ (by norm_num))]
      rfl

/-! ## The output array after the region -/

/-- The row block of output row `r` (eight output rows a block; four blocks). -/
def rowOf (r : ℕ) : Fin 4 := ⟨(r / 8) % 4, Nat.mod_lt _ (by norm_num)⟩

/-- What the output array ends holding: at (r, q) the sum of row block r / 8. -/
def outG (S T : Fin 4096 → Fin 3 → ℝ) (u v : Fin 4096 → ℝ) : S32x128.Idx → EReal :=
  fun i => ((Cert.Mmd.blockSum S T u v (rowOf (i 0).val) : ℝ) : EReal)

/-- WHAT A FLUSHING POINT WRITES BACK: the last tile of a row leaves the row block's sum at every entry. -/
theorem flushed_eq (hv : HostVals m c S T u v) (t : Fin cfg0.N) (hf : (cfg0.win 4).flush t = true) :
    (dats m 0 c).flushed 4 t = ((cfg0.win 4).blk t).view.read (Elt Ideal) (outG S T u v) := by
  have h3 : t.val % 4 = 3 := (flush0_4 t).mp hf
  have hN := lt16 t
  obtain ⟨-, -, -, -, -, -, -, -, e0, e1⟩ := idx_facts t
  show (cfg0.win 4).cut (grid0.coords t) ((dats m 0 c).after 4 t) = _
  rw [after0_4]
  funext y
  show outsAt0 m c t.val t.isLt y = outG S T u v (((cfg0.win 4).blk t).view.emb y)
  rw [outs_eq hv t.val t.isLt y, h3]
  have hy : (y 0).val < 8 := (y 0).isLt
  have hrow : rowOf ((((cfg0.win 4).blk t).view.emb y) 0).val = rowB t := Fin.ext (by
    show ((win0_4.index t (0 : Fin 2) * 8 + 1 * (y 0).val) / 8) % 4 = t.val / 4
    omega)
  show _ = ((Cert.Mmd.blockSum S T u v (rowOf ((((cfg0.win 4).blk t).view.emb y) 0).val) : ℝ) : EReal)
  rw [hrow]
  rfl

/-- An index of the output array is in point `t`'s block iff each coordinate is in the block's range. -/
theorem mem_blk4 (t : Fin cfg0.N) (i : S32x128.Idx) :
    i ∈ ((cfg0.win 4).blk t).view.set ↔ ∀ a : Fin 2, win0_4.index t a * S8x128.size a ≤ (i a).val ∧ (i a).val < win0_4.index t a * S8x128.size a + S8x128.size a := by
  show i ∈ ((View.whole main_v83).slice (win0_4.rect t)).set ↔ _
  rw [View.set_slice_whole, Rect.mem_set_unit]
  exact Iff.rfl

/-- Every index of the output array is in the block of the last tile of its row block. -/
theorem covered (i : S32x128.Idx) :
    ∃ t : Fin cfg0.N, (cfg0.win 4).flush t = true ∧ i ∈ ((cfg0.win 4).blk t).view.set := by
  have hi0 : (i 0).val < 32 := (i 0).isLt
  have hi1 : (i 1).val < 128 := (i 1).isLt
  have hlt : 4 * ((i 0).val / 8) + 3 < cfg0.N := lt_of_lt_of_eq (by omega : 4 * ((i 0).val / 8) + 3 < 16) N_0.symm
  refine ⟨⟨4 * ((i 0).val / 8) + 3, hlt⟩, (flush0_4 _).mpr (by show (4 * ((i 0).val / 8) + 3) % 4 = 3; omega), ?_⟩
  rw [mem_blk4]
  obtain ⟨-, -, -, -, -, -, -, -, e0, e1⟩ := idx_facts ⟨4 * ((i 0).val / 8) + 3, hlt⟩
  have e0' : win0_4.index ⟨4 * ((i 0).val / 8) + 3, hlt⟩ (0 : Fin 2) = (4 * ((i 0).val / 8) + 3) / 4 := e0
  intro a
  match a with
  | ⟨0, _⟩ =>
    show win0_4.index ⟨4 * ((i 0).val / 8) + 3, hlt⟩ (0 : Fin 2) * 8 ≤ (i 0).val ∧ (i 0).val < win0_4.index ⟨4 * ((i 0).val / 8) + 3, hlt⟩ (0 : Fin 2) * 8 + 8
    omega
  | ⟨1, _⟩ =>
    show win0_4.index ⟨4 * ((i 0).val / 8) + 3, hlt⟩ (1 : Fin 2) * 128 ≤ (i 1).val ∧ (i 1).val < win0_4.index ⟨4 * ((i 0).val / 8) + 3, hlt⟩ (1 : Fin 2) * 128 + 128
    omega

/-- THE OUTPUT ARRAY after the region: entry (r, q) holds the sum of row block r / 8. -/
theorem out_array (hv : HostVals m c S T u v) : (dats m 0 c).arrAt 4 cfg0.N = outG S T u v :=
  (dats m 0 c).arrAt_eq_of_cover 4 (outG S T u v) (fun t hf => flushed_eq hv t hf) covered

end Cert.KernelIdeal.Accum

end
-- ==== Proof.KernelTail.lean ====
/-
  The host operations after the region: the sum of the 32 × 128 output entries, divided by 1024, times -2. Entry (r, q)
  holds the sum of row block r / 8, a real number, so the total is 1024 times the sum of the four row blocks' sums and
  the result is `lossKer S T u v`.
-/
import proofs.«415581_j7954279432506_3_alg».proof.Proof.KernelAccum
import Idealize.ShloMosaic.Lib.StableHlo.Run
import Idealize.ShloMosaic.Lib.ValueIdx
import Idealize.ShloMosaic.PureOps.Ideal.Laws

set_option maxRecDepth 16384

noncomputable section

namespace Cert.KernelIdeal.Tail

open Cert.KernelIdeal Cert.KernelIdeal.Gen Cert.KernelIdeal.Iface Cert.KernelIdeal.Accum
open Idealize.ShloMosaic Idealize.ShloMosaic.TcCoe Idealize.ShloMosaic.Tactic Idealize.ShloMosaic.ValueIdx Idealize.SL.Sem
open Idealize.ShloMosaic.StableHlo
open Facts₀ Facts
open BigOperators

variable {m : (ℓ : Loc nD τ sig) → Buf (Elt Ideal) ℓ} {c : Dev nD}
variable {S T : Fin 4096 → Fin 3 → ℝ} {u v : Fin 4096 → ℝ}

/-- A finite sum of coercions of reals is the coercion of the sum. -/
theorem coe_sum {ι : Type} (s : Finset ι) (f : ι → ℝ) :
    (∑ i ∈ s, ((f i : ℝ) : EReal)) = ((∑ i ∈ s, f i : ℝ) : EReal) := by
  classical
  refine Finset.induction_on s ?_ ?_
  · rw [Finset.sum_empty, Finset.sum_empty, EReal.coe_zero]
  · intro a s ha ih
    rw [Finset.sum_insert ha, Finset.sum_insert ha, ih, EReal.coe_add]

/-- The pattern of `-2.0` denotes the real `-2`, and that of `1024.0` the real `1024`. -/
theorem ofBits_neg_two : Ideal.ofBits .f32 0xC0000000#32 = ((-2 : ℝ) : EReal) := by
  simp [Ideal.ofBits, Ideal.ieee, -EReal.coe_mul]; norm_num
theorem ofBits_1024 : Ideal.ofBits .f32 0x44800000#32 = ((1024 : ℝ) : EReal) := by
  simp [Ideal.ofBits, Ideal.ieee, -EReal.coe_mul]; norm_num

/-- Division by the real 1024 is the product with its reciprocal, on every extended real. -/
theorem div_1024 (x : EReal) : Ideal.div x ((1024 : ℝ) : EReal) = x * (((1 / 1024 : ℝ)) : EReal) :=
  Ideal.div_coe (by norm_num) x

/-- The sum of all the output entries, as a real number. -/
theorem sum_outG :
    (∑ i : S32x128.Idx, outG S T u v i)
      = ((∑ r : Fin 32, ∑ _q : Fin 128,
          Cert.Mmd.blockSum S T u v ⟨r.val / 8, by have := r.isLt; omega⟩ : ℝ) : EReal) := by
  rw [sum_idx2, ← coe_sum]
  refine Finset.sum_congr rfl fun r _ => ?_
  rw [← coe_sum]
  refine Finset.sum_congr rfl fun q _ => ?_
  show ((Cert.Mmd.blockSum S T u v (rowOf r.val) : ℝ) : EReal) = _
  have hr : rowOf r.val = ⟨r.val / 8, by have := r.isLt; omega⟩ :=
    Fin.ext (by show (r.val / 8) % 4 = r.val / 8; have := r.isLt; omega)
  rw [hr]

/-- THE RESULT of the program: the lines after the region leave `lossKer S T u v` in the result buffer. -/
theorem result_eq (hv : HostVals m c S T u v) :
    (Pipeline.afterTail₀ cfgs (dats m) 0 (V0 m) [hostOps1] c main_v86 : S_.Idx → EReal)
      = fun _ => ((Cert.Mmd.lossKer S T u v : ℝ) : EReal) := by
  unfold Pipeline.afterTail₀
  show StableHlo.after hostOps1 _ (Proc.devRef .tc main_v86) = _
  after_results
  have harr : (Pipeline.withArrays (cfgs 0).spec c (V0 m c) (fun w => (dats m 0 c).arrAt w (cfgs 0).N)
      (Proc.tc.devRef main_v83) : S32x128.Idx → EReal) = outG S T u v :=
    (Pipeline.withArrays_arr spec0 launch0.win.arr_inj c _ _ 4).trans (out_array hv)
  rw [harr]
  funext i
  have hsum : Host.reduceAdd (F := Ideal) (outG S T u v) (constant S_ .f32 0#32) Facts₀.reducesTo_S32x128_S_d0_1 Facts₀.h_S_ i
      = (constant (F := Ideal) S_ .f32 0#32) (Shape.Idx.first Facts₀.h_S_) + ∑ j : S32x128.Idx, outG S T u v j := by
    simp only [Host.reduceAdd, Ideal.hostReduceAdd_def]
    exact Ideal.hostReduceAdd_total Facts₀.reducesTo_S32x128_S_d0_1 (fun b => b.elim0) _ _ i
  show (Ideal.ofBits .f32 0xC0000000#32 : EReal)
      * Ideal.div (Host.reduceAdd (F := Ideal) (outG S T u v) (constant S_ .f32 0#32) Facts₀.reducesTo_S32x128_S_d0_1 Facts₀.h_S_ i)
          (Ideal.ofBits .f32 0x44800000#32) = _
  rw [hsum]
  rw [constant_apply]
  rw [Ideal.ofBits_zero_f32]
  rw [sum_outG]
  rw [ofBits_neg_two]
  rw [ofBits_1024]
  rw [div_1024]
  rw [← EReal.coe_zero, ← EReal.coe_add, ← EReal.coe_mul, ← EReal.coe_mul]
  refine congrArg (fun x : ℝ => (x : EReal)) ?_
  unfold Cert.Mmd.lossKer
  rw [mul_one_div]

end Cert.KernelIdeal.Tail

end
-- ==== Proof.lean ====
/-
  Equivalence, over the extended reals, of a tiled maximum-mean-discrepancy cross term and its pairwise reference.

  Two samples of 4096 points of ℝ³ are given, with finite entries and not all 8192 points equal. Both programs weight
  the points by the same confidence weights (real numbers in every case: an exponential of a nonpositive or -∞
  argument over a positive sum) and use a bandwidth proportional to the total of all pairwise squared distances, which
  is positive because the points are not all equal. The reference takes that total from the 8192 × 8192 matrix of
  distances and sums five Gaussians `exp (-d / (bw · 2^k))` per pair; the kernel takes it from the moments of the pooled
  sample (`Σ_ij |P i - P j|² = 2n Σ|P i|² - 2 Σ_d (Σ_i P i d)²`), folds `-1 / (16 bw)` into its operands, gets the five
  Gaussians from one exponential by repeated squaring, and accumulates the weighted sums tile by tile over a 4 × 4
  grid. With a nonzero real bandwidth every intermediate of both programs is a real number, and the two results are
  the same real number: the distributive law over finite real sums, `exp (2x) = (exp x)²`, and the regrouping of a sum
  over 4096 × 4096 pairs into 16 tiles.
-/
import proofs.«415581_j7954279432506_3_alg».proof.Defs
import proofs.«415581_j7954279432506_3_alg».proof.Proof.Gen.Kernel
import proofs.«415581_j7954279432506_3_alg».proof.Proof.Gen.Kernel.Skeleton
import proofs.«415581_j7954279432506_3_alg».proof.Proof.Gen.Kernel.Launch
import proofs.«415581_j7954279432506_3_alg».proof.Proof.Gen.Kernel.Points
import proofs.«415581_j7954279432506_3_alg».proof.Proof.Gen.Kernel.Frame
import proofs.«415581_j7954279432506_3_alg».proof.Proof.Gen.KernelIdeal
import proofs.«415581_j7954279432506_3_alg».proof.Proof.Gen.KernelIdeal.Skeleton
import proofs.«415581_j7954279432506_3_alg».proof.Proof.Gen.KernelIdeal.Launch
import proofs.«415581_j7954279432506_3_alg».proof.Proof.Gen.KernelIdeal.Points
import proofs.«415581_j7954279432506_3_alg».proof.Proof.Gen.KernelIdeal.Frame
import proofs.«415581_j7954279432506_3_alg».proof.Proof.Gen.ReferenceIdeal
import proofs.«415581_j7954279432506_3_alg».proof.Proof.Gen.Pre_finite_inputs
import proofs.«415581_j7954279432506_3_alg».proof.Proof.Gen.ReferenceIdeal.Run
import proofs.«415581_j7954279432506_3_alg».proof.Proof.Gen.ReferenceIdeal.Read
import proofs.«415581_j7954279432506_3_alg».proof.Proof.Algebra
import proofs.«415581_j7954279432506_3_alg».proof.Proof.PreDecode
import proofs.«415581_j7954279432506_3_alg».proof.Proof.RefWeights
import proofs.«415581_j7954279432506_3_alg».proof.Proof.RefValue
import proofs.«415581_j7954279432506_3_alg».proof.Proof.KernelHost
import proofs.«415581_j7954279432506_3_alg».proof.Proof.KernelTail
import Idealize.ShloMosaic.Adequacy
import Idealize.ShloMosaic.Init

noncomputable section

namespace Cert.Proof

open Idealize.ShloMosaic Idealize.ShloMosaic.TcCoe Idealize.ShloMosaic.ValueIdx Idealize.SL.Sem

/-- The three programs run to the end without a fault and leave their arguments as they were. -/
theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten on the way to the idealized kernel. -/
theorem preserves : Cert.preserves_Kernel_KernelIdeal := trivial

/-- Both idealized programs end with the same real number in their result. -/
theorem algebraic : Cert.algebraic_KernelIdeal_ReferenceIdeal := by
  intro m ρ m' ρ' hpre hagree
  -- per device: real samples, real weights, a positive bandwidth
  have hdec : ∀ c : Dev Cert.KernelIdeal.nD, ∃ (S T : Fin 4096 → Fin 3 → ℝ) (u v : Fin 4096 → ℝ),
      (∀ (p : Fin 4096) (k : Fin 3),
        (m ((c.tc : Thread Cert.KernelIdeal.nD Cert.KernelIdeal.τ).loc Cert.KernelIdeal.main_arg0) :
          Cert.KernelIdeal.S4096x3.Idx → EReal) (ix2 p k) = ((S p k : ℝ) : EReal))
      ∧ (∀ (p : Fin 4096) (k : Fin 3),
        (m ((c.tc : Thread Cert.KernelIdeal.nD Cert.KernelIdeal.τ).loc Cert.KernelIdeal.main_arg1) :
          Cert.KernelIdeal.S4096x3.Idx → EReal) (ix2 p k) = ((T p k : ℝ) : EReal))
      ∧ (∀ p : Fin 4096, Cert.ReferenceIdeal.Read.val_main_v24 (F := Ideal)
          (m ((c.tc : Thread Cert.KernelIdeal.nD Cert.KernelIdeal.τ).loc Cert.KernelIdeal.main_arg0)) (ix1 p)
            = ((u p : ℝ) : EReal))
      ∧ (∀ p : Fin 4096, Cert.ReferenceIdeal.Read.val_main_v49 (F := Ideal)
          (m ((c.tc : Thread Cert.KernelIdeal.nD Cert.KernelIdeal.τ).loc Cert.KernelIdeal.main_arg1)) (ix1 p)
            = ((v p : ℝ) : EReal))
      ∧ 0 < Cert.Mmd.bwRef (Cert.Mmd.pool S T) := by
    intro c
    obtain ⟨S, T, hS, hT, hne⟩ := Cert.PreDecode.decode _ _ (hpre c)
    obtain ⟨u, hu⟩ := Cert.ReferenceIdeal.RefWeights.sw_real
      (m ((c.tc : Thread Cert.KernelIdeal.nD Cert.KernelIdeal.τ).loc Cert.KernelIdeal.main_arg0))
    obtain ⟨v, hv⟩ := Cert.ReferenceIdeal.RefWeights.tw_real
      (m ((c.tc : Thread Cert.KernelIdeal.nD Cert.KernelIdeal.τ).loc Cert.KernelIdeal.main_arg1))
    exact ⟨S, T, u, v, hS, hT, hu, hv, Cert.Mmd.bw_pos _ hne⟩
  choose S T u v hS hT hu hv hbw using hdec
  refine ⟨fun c => fun _ => ((Cert.Mmd.lossKer (S c) (T c) (u c) (v c) : ℝ) : EReal), ?_, ?_⟩
  · -- the kernel: the frame run, its result read through the lines after the region
    refine (θ_run Cert.KernelIdeal.defs _ _).mono (fun r h c => ?_) (Cert.KernelIdeal.Gen.run_main m ρ)
    have hvals := Cert.KernelIdeal.Host.hostVals m c (S c) (T c) (u c) (v c) (hS c) (hT c) (hu c) (hv c)
      (by rw [Cert.Mmd.bw_moments]; exact (hbw c).ne')
    refine ⟨?_, ?_, ?_⟩
    · exact ((h c).2 Cert.KernelIdeal.main_v86
        (Pipeline.mem_restRefs_of Cert.KernelIdeal.main_v86 (by decide) (by decide))).trans
        (Cert.KernelIdeal.Tail.result_eq hvals)
    · exact ((h c).1 0).trans (((Cert.KernelIdeal.Gen.dats m 0 c).arrAt_in 0 rfl _).trans
        ((Cert.KernelIdeal.Gen.A_eq m c 0).trans (Cert.KernelIdeal.Gen.V_main_arg0 m c)))
    · exact ((h c).2 Cert.KernelIdeal.main_arg1
        (Pipeline.mem_restRefs_of Cert.KernelIdeal.main_arg1 (by decide) (by decide))).trans
        (Cert.KernelIdeal.Gen.W_main_arg1 m (Cert.KernelIdeal.Gen.dats m) c)
  · -- the reference: its run, its result read stage by stage, then the two losses are one number
    refine (θ_run Cert.ReferenceIdeal.defs _ _).mono (fun r h c => ⟨(h c).1.trans ?_, (h c).2⟩)
      (Cert.ReferenceIdeal.Value.run (F := Ideal) m' ρ')
    rw [Cert.ReferenceIdeal.Read.val_main_v105_eq, (hagree c).1, (hagree c).2,
      Cert.ReferenceIdeal.RefValue.ref_value _ _ (S c) (T c) (u c) (v c) (hS c) (hT c) (hu c) (hv c) (hbw c).ne',
      ← Cert.Mmd.loss_eq (S c) (T c) (u c) (v c) (hbw c).ne']
    rfl

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
